-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S1024x64 : Shape := ⟨2, ![1024, 64]⟩
abbrev S256x1024x64 : Shape := ⟨3, ![256, 1024, 64]⟩
abbrev S128x64 : Shape := ⟨2, ![128, 64]⟩
abbrev S64 : Shape := ⟨1, ![64]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S256x1024x64 : S_.BroadcastsInDim S256x1024x64 (![] : Fin 0 → Fin S256x1024x64.rank)
  reducesTo_S256x1024x64_S_d0_1_2 : S256x1024x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S128x64 .f32) (main_arg6 : FVec F S64 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S256x64 .f32) (main_arg1 : FVec F S1024x64 .f32) (main_arg2 : FVec F S256x1024x64 .f32) (main_arg3 : FVec F S128x64 .f32) (main_arg4 : FVec F S64 .f32) (main_arg5 : FVec F S128x64 .f32) (main_arg6 : FVec F S64 .f32) (main_arg7 : FVec F S128x64 .f32) (main_arg8 : FVec F S64 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S256x1024x64 .f32 := Host.absf main_arg2
  let main_cst_2 : FVec F S_ .f32 := constant S_ .f32 0x7F800000#32
  let main_v10 : FVec F S256x1024x64 .f32 := broadcastInDim S256x1024x64 ![] bcast_S_S256x1024x64 main_cst_2
  let main_v11 : IVec S256x1024x64 1 := cmpf .olt main_v9 main_v10
  let main_c_3 : IVec S_ 1 := constantI S_ 1 1#1
  let main_v12 : IVec S_ 1 := (fun x v => Host.reduce IntOp.andi x v reducesTo_S256x1024x64_S_d0_1_2 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S256x64 : Shape := ⟨2, ![256, 64]⟩
abbrev S1024x64 : Shape := ⟨2, ![1024, 64]⟩
abbrev S256x1024x64 : Shape := ⟨3, ![256, 1024, 64]⟩
abbrev S128x64 : Shape := ⟨2, ![128, 64]⟩
abbrev S64 : Shape := ⟨1, ![64]⟩
abbrev S32x64 : Shape := ⟨2, ![32, 64]⟩
abbrev S256x32x64 : Shape := ⟨3, ![256, 32, 64]⟩
abbrev S256x1x64 : Shape := ⟨3, ![256, 1, 64]⟩
abbrev S256x32x128 : Shape := ⟨3, ![256, 32, 128]⟩
abbrev S8192x128 : Shape := ⟨2, ![8192, 128]⟩
abbrev S8192x64 : Shape := ⟨2, ![8192, 64]⟩
abbrev S1x1x64 : Shape := ⟨3, ![1, 1, 64]⟩
abbrev S1x32x64 : Shape := ⟨3, ![1, 32, 64]⟩
abbrev S64x64 : Shape := ⟨2, ![64, 64]⟩
abbrev S64x128x64 : Shape := ⟨3, ![64, 128, 64]⟩
abbrev S64x1x64 : Shape := ⟨3, ![64, 1, 64]⟩
abbrev S64x128x128 : Shape := ⟨3, ![64, 128, 128]⟩
abbrev S1x128x64 : Shape := ⟨3, ![1, 128, 64]⟩

abbrev nBuf : Space → Nat
  | .hbm => 12
  | .vmem => 30
  | .smem => 0
  | _ => 0

abbrev bufTy : (tb : Table) → Fin (tcTables nBuf tb) → BufTy
  | .hbm, ⟨0, _⟩ => ⟨S256x64, .f32⟩
  | .hbm, ⟨1, _⟩ => ⟨S1024x64, .f32⟩
  | .hbm, ⟨2, _⟩ => ⟨S256x1024x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S256x64, .f32⟩
  | .hbm, ⟨10, _⟩ => ⟨S1024x64, .f32⟩
  | .hbm, ⟨11, _⟩ => ⟨S256x1024x64, .f32⟩
  | .local _ .vmem, ⟨0, _⟩ => ⟨S256x64, .f32⟩
  | .local _ .vmem, ⟨1, _⟩ => ⟨S32x64, .f32⟩
  | .local _ .vmem, ⟨2, _⟩ => ⟨S32x64, .f32⟩
  | .local _ .vmem, ⟨3, _⟩ => ⟨S256x32x64, .f32⟩
  | .local _ .vmem, ⟨4, _⟩ => ⟨S256x32x64, .f32⟩
  | .local _ .vmem, ⟨5, _⟩ => ⟨S128x64, .f32⟩
  | .local _ .vmem, ⟨6, _⟩ => ⟨S64, .f32⟩
  | .local _ .vmem, ⟨7, _⟩ => ⟨S128x64, .f32⟩
  | .local _ .vmem, ⟨8, _⟩ => ⟨S64, .f32⟩
  | .local _ .vmem, ⟨9, _⟩ => ⟨S256x64, .f32⟩
  | .local _ .vmem, ⟨10, _⟩ => ⟨S32x64, .f32⟩
  | .local _ .vmem, ⟨11, _⟩ => ⟨S32x64, .f32⟩
  | .local _ .vmem, ⟨12, _⟩ => ⟨S64x64, .f32⟩
  | .local _ .vmem, ⟨13, _⟩ => ⟨S64x64, .f32⟩
  | .local _ .vmem, ⟨14, _⟩ => ⟨S128x64, .f32⟩
  | .local _ .vmem, ⟨15, _⟩ => ⟨S128x64, .f32⟩
  | .local _ .vmem, ⟨16, _⟩ => ⟨S64x128x64, .f32⟩
  | .local _ .vmem, ⟨17, _⟩ => ⟨S64x128x64, .f32⟩
  | .local _ .vmem, ⟨18, _⟩ => ⟨S64x64, .f32⟩
  | .local _ .vmem, ⟨19, _⟩ => ⟨S64x64, .f32⟩
  | .local _ .vmem, ⟨20, _⟩ => ⟨S128x64, .f32⟩
  | .local _ .vmem, ⟨21, _⟩ => ⟨S128x64, .f32⟩
  | .local _ .vmem, ⟨22, _⟩ => ⟨S128x64, .f32⟩
  | .local _ .vmem, ⟨23, _⟩ => ⟨S64, .f32⟩
  | .local _ .vmem, ⟨24, _⟩ => ⟨S128x64, .f32⟩
  | .local _ .vmem, ⟨25, _⟩ => ⟨S64, .f32⟩
  | .local _ .vmem, ⟨26, _⟩ => ⟨S128x64, .f32⟩
  | .local _ .vmem, ⟨27, _⟩ => ⟨S64, .f32⟩
  | .local _ .vmem, ⟨28, _⟩ => ⟨S64x128x64, .f32⟩
  | .local _ .vmem, ⟨29, _⟩ => ⟨S64x128x64, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S64x128x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  inb_S256x64_S256x64_0_0 : ∀ a, (![0, 0] : Fin 2 → Nat) a + S256x64.size a ≤ S256x64.size a
  h_S256x64 : 0 < S256x64.numel
  inb_S32x64_S32x64_0_0 : ∀ a, (![0, 0] : Fin 2 → Nat) a + S32x64.size a ≤ S32x64.size a
  h_S32x64 : 0 < S32x64.numel
  inb_S256x32x64_S256x32x64_0_0_0 : ∀ a, (![0, 0, 0] : Fin 3 → Nat) a + S256x32x64.size a ≤ S256x32x64.size a
  h_S256x32x64 : 0 < S256x32x64.numel
  shapeCasts_S256x64_S256x1x64 : S256x64.ShapeCasts S256x1x64
  shapeCasts_S256x1x64_S256x1x64 : S256x1x64.ShapeCasts S256x1x64
  broadcasts_S256x1x64_S256x32x64 : S256x1x64.Broadcasts S256x32x64
  concatenates_S256x32x64_S256x32x64_S256x32x128_d2 : Shape.Concatenates [S256x32x64, S256x32x64] S256x32x128 2
  shapeCasts_S256x32x128_S8192x128 : S256x32x128.ShapeCasts S8192x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S8192x64_S256x32x64 : S8192x64.ShapeCasts S256x32x64
  inb_S64_S64_0 : ∀ a, (![0] : Fin 1 → Nat) a + S64.size a ≤ S64.size a
  h_S64 : 0 < S64.numel
  shapeCasts_S64_S1x1x64 : S64.ShapeCasts S1x1x64
  broadcasts_S1x1x64_S256x32x64 : S1x1x64.Broadcasts S256x32x64
  shapeCasts_S32x64_S1x32x64 : S32x64.ShapeCasts S1x32x64
  shapeCasts_S1x32x64_S1x32x64 : S1x32x64.ShapeCasts S1x32x64
  broadcasts_S1x32x64_S256x32x64 : S1x32x64.Broadcasts S256x32x64
  reduces_S256x32x64_S256x64 : S256x32x64.Reduces [1] S256x64
  reduces_S256x32x64_S32x64 : S256x32x64.Reduces [0] S32x64
  shapeCasts_S256x64_S256x64 : S256x64.ShapeCasts S256x64
  inb_S64x64_S64x64_0_0 : ∀ a, (![0, 0] : Fin 2 → Nat) a + S64x64.size a ≤ S64x64.size a
  h_S64x64 : 0 < S64x64.numel
  inb_S64x128x64_S64x128x64_0_0_0 : ∀ a, (![0, 0, 0] : Fin 3 → Nat) a + S64x128x64.size a ≤ S64x128x64.size a
  h_S64x128x64 : 0 < S64x128x64.numel
  shapeCasts_S64x64_S64x64 : S64x64.ShapeCasts S64x64
  shapeCasts_S128x64_S128x64 : S128x64.ShapeCasts S128x64
  shapeCasts_S64x64_S64x1x64 : S64x64.ShapeCasts S64x1x64
  shapeCasts_S64x1x64_S64x1x64 : S64x1x64.ShapeCasts S64x1x64
  broadcasts_S64x1x64_S64x128x64 : S64x1x64.Broadcasts S64x128x64
  concatenates_S64x128x64_S64x128x64_S64x128x128_d2 : Shape.Concatenates [S64x128x64, S64x128x64] S64x128x128 2
  shapeCasts_S64x128x128_S8192x128 : S64x128x128.ShapeCasts S8192x128
  shapeCasts_S8192x64_S64x128x64 : S8192x64.ShapeCasts S64x128x64
  broadcasts_S1x1x64_S64x128x64 : S1x1x64.Broadcasts S64x128x64
  shapeCasts_S128x64_S1x128x64 : S128x64.ShapeCasts S1x128x64
  shapeCasts_S1x128x64_S1x128x64 : S1x128x64.ShapeCasts S1x128x64
  broadcasts_S1x128x64_S64x128x64 : S1x128x64.Broadcasts S64x128x64
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S1024x64.size a
  hwx0_1 : ∀ i : grid0.Coords, EltTy.bits .f32 = 32 ∨ (Rect.block (s := S1024x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x64.size a ≤ S256x1024x64.size a
  hwx0_2 : ∀ i : grid0.Coords, EltTy.bits .f32 = 32 ∨ (Rect.block (s := S256x1024x64) S256x32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S1024x64.size a
  hwx0_8 : ∀ i : grid0.Coords, EltTy.bits .f32 = 32 ∨ (Rect.block (s := S1024x64) S32x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x64.size a ≤ S256x64.size a
  hwx1_0 : ∀ i : grid1.Coords, EltTy.bits .f32 = 32 ∨ (Rect.block (s := S256x64) S64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S1024x64.size a
  hwx1_1 : ∀ i : grid1.Coords, EltTy.bits .f32 = 32 ∨ (Rect.block (s := S1024x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128x64.size a ≤ S256x1024x64.size a
  hwx1_2 : ∀ i : grid1.Coords, EltTy.bits .f32 = 32 ∨ (Rect.block (s := S256x1024x64) S64x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S256x64.size a
  hwx1_3 : ∀ i : grid1.Coords, EltTy.bits .f32 = 32 ∨ (Rect.block (s := S256x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S1024x64.size a
  hwx1_4 : ∀ i : grid1.Coords, EltTy.bits .f32 = 32 ∨ (Rect.block (s := S1024x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x64.size a ≤ S128x64.size a
  hwx1_9 : ∀ i : grid1.Coords, EltTy.bits .f32 = 32 ∨ (Rect.block (s := S128x64) S128x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S64x128x64.size a ≤ S256x1024x64.size a
  hwx1_11 : ∀ i : grid1.Coords, EltTy.bits .f32 = 32 ∨ (Rect.block (s := S256x1024x64) S64x128x64.size (cc1_transform_11 i) (hinb1_11 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S256x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S32x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S128x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S128x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg8) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v1) S64x128x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S256x64 : Shape := ⟨2, ![256, 64]⟩
abbrev S1024x64 : Shape := ⟨2, ![1024, 64]⟩
abbrev S256x1024x64 : Shape := ⟨3, ![256, 1024, 64]⟩
abbrev S128x64 : Shape := ⟨2, ![128, 64]⟩
abbrev S64 : Shape := ⟨1, ![64]⟩
abbrev S256x1x64 : Shape := ⟨3, ![256, 1, 64]⟩
abbrev S256x1024x128 : Shape := ⟨3, ![256, 1024, 128]⟩
abbrev S1x1x64 : Shape := ⟨3, ![1, 1, 64]⟩
abbrev S_ : Shape := ⟨0, ![]⟩
abbrev S1024x256x64 : Shape := ⟨3, ![1024, 256, 64]⟩
abbrev S1024x1x64 : Shape := ⟨3, ![1024, 1, 64]⟩
abbrev S1024x256x128 : Shape := ⟨3, ![1024, 256, 128]⟩
abbrev S1x1024x64 : Shape := ⟨3, ![1, 1024, 64]⟩

abbrev nBuf : Space → Nat
  | .hbm => 47
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S1024x64, .f32⟩
  | .hbm, ⟨2, _⟩ => ⟨S256x1024x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S256x1x64, .f32⟩
  | .hbm, ⟨10, _⟩ => ⟨S256x1024x64, .f32⟩
  | .hbm, ⟨11, _⟩ => ⟨S256x1024x128, .f32⟩
  | .hbm, ⟨12, _⟩ => ⟨S256x1024x64, .f32⟩
  | .hbm, ⟨13, _⟩ => ⟨S1x1x64, .f32⟩
  | .hbm, ⟨14, _⟩ => ⟨S256x1024x64, .f32⟩
  | .hbm, ⟨15, _⟩ => ⟨S256x1024x64, .f32⟩
  | .hbm, ⟨16, _⟩ => ⟨S_, .f32⟩
  | .hbm, ⟨17, _⟩ => ⟨S256x1024x64, .f32⟩
  | .hbm, ⟨18, _⟩ => ⟨S256x1024x64, .f32⟩
  | .hbm, ⟨19, _⟩ => ⟨S1024x256x64, .f32⟩
  | .hbm, ⟨20, _⟩ => ⟨S1024x1x64, .f32⟩
  | .hbm, ⟨21, _⟩ => ⟨S1024x256x64, .f32⟩
  | .hbm, ⟨22, _⟩ => ⟨S1024x256x128, .f32⟩
  | .hbm, ⟨23, _⟩ => ⟨S1024x256x64, .f32⟩
  | .hbm, ⟨24, _⟩ => ⟨S1x1x64, .f32⟩
  | .hbm, ⟨25, _⟩ => ⟨S1024x256x64, .f32⟩
  | .hbm, ⟨26, _⟩ => ⟨S1024x256x64, .f32⟩
  | .hbm, ⟨27, _⟩ => ⟨S_, .f32⟩
  | .hbm, ⟨28, _⟩ => ⟨S1024x256x64, .f32⟩
  | .hbm, ⟨29, _⟩ => ⟨S1024x256x64, .f32⟩
  | .hbm, ⟨30, _⟩ => ⟨S_, .f32⟩
  | .hbm, ⟨31, _⟩ => ⟨S256x64, .f32⟩
  | .hbm, ⟨32, _⟩ => ⟨S_, .f32⟩
  | .hbm, ⟨33, _⟩ => ⟨S1024x64, .f32⟩
  | .hbm, ⟨34, _⟩ => ⟨S256x1x64, .f32⟩
  | .hbm, ⟨35, _⟩ => ⟨S256x1024x64, .f32⟩
  | .hbm, ⟨36, _⟩ => ⟨S256x1024x64, .f32⟩
  | .hbm, ⟨37, _⟩ => ⟨S1x1024x64, .f32⟩
  | .hbm, ⟨38, _⟩ => ⟨S256x1024x64, .f32⟩
  | .hbm, ⟨39, _⟩ => ⟨S256x1024x64, .f32⟩
  | .hbm, ⟨40, _⟩ => ⟨S256x1024x64, .f32⟩
  | .hbm, ⟨41, _⟩ => ⟨S256x1024x64, .f32⟩
  | .hbm, ⟨42, _⟩ => ⟨S256x1024x128, .f32⟩
  | .hbm, ⟨43, _⟩ => ⟨S256x1024x64, .f32⟩
  | .hbm, ⟨44, _⟩ => ⟨S1x1x64, .f32⟩
  | .hbm, ⟨45, _⟩ => ⟨S256x1024x64, .f32⟩
  | .hbm, ⟨46, _⟩ => ⟨S256x1024x64, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S256x64_S256x1x64_0_2 : S256x64.BroadcastsInDim S256x1x64 (![0, 2] : Fin 2 → Fin S256x1x64.rank)
  bcast_S256x1x64_S256x1024x64_0_1_2 : S256x1x64.BroadcastsInDim S256x1024x64 (![0, 1, 2] : Fin 3 → Fin S256x1024x64.rank)
  concatenates_S256x1024x64_S256x1024x64_S256x1024x128_d2 : Shape.Concatenates [S256x1024x64, S256x1024x64] S256x1024x128 2
  bcast_S64_S1x1x64_2 : S64.BroadcastsInDim S1x1x64 (![2] : Fin 1 → Fin S1x1x64.rank)
  bcast_S1x1x64_S256x1024x64_0_1_2 : S1x1x64.BroadcastsInDim S256x1024x64 (![0, 1, 2] : Fin 3 → Fin S256x1024x64.rank)
  bcast_S_S256x1024x64 : S_.BroadcastsInDim S256x1024x64 (![] : Fin 0 → Fin S256x1024x64.rank)
  transposes_S256x1024x64_S1024x256x64_1_0_2 : S256x1024x64.Transposes [1, 0, 2] S1024x256x64
  bcast_S1024x64_S1024x1x64_0_2 : S1024x64.BroadcastsInDim S1024x1x64 (![0, 2] : Fin 2 → Fin S1024x1x64.rank)
  bcast_S1024x1x64_S1024x256x64_0_1_2 : S1024x1x64.BroadcastsInDim S1024x256x64 (![0, 1, 2] : Fin 3 → Fin S1024x256x64.rank)
  concatenates_S1024x256x64_S1024x256x64_S1024x256x128_d2 : Shape.Concatenates [S1024x256x64, S1024x256x64] S1024x256x128 2
  bcast_S1x1x64_S1024x256x64_0_1_2 : S1x1x64.BroadcastsInDim S1024x256x64 (![0, 1, 2] : Fin 3 → Fin S1024x256x64.rank)
  bcast_S_S1024x256x64 : S_.BroadcastsInDim S1024x256x64 (![] : Fin 0 → Fin S1024x256x64.rank)
  reducesTo_S256x1024x64_S256x64_d1 : S256x1024x64.ReducesTo [1] S256x64
  h_S_ : 0 < S_.numel
  reducesTo_S1024x256x64_S1024x64_d1 : S1024x256x64.ReducesTo [1] S1024x64
  bcast_S1024x64_S1x1024x64_1_2 : S1024x64.BroadcastsInDim S1x1024x64 (![1, 2] : Fin 2 → Fin S1x1024x64.rank)
  transposes_S1024x256x64_S256x1024x64_1_0_2 : S1024x256x64.Transposes [1, 0, 2] S256x1024x64
  bcast_S1x1024x64_S256x1024x64_0_1_2 : S1x1024x64.BroadcastsInDim S256x1024x64 (![0, 1, 2] : Fin 3 → Fin S256x1024x64.rank)
  dot_S256x1024x128_S128x64_S256x1024x64_2_0_01_1_n_n_wf : DotDims.WF S256x1024x128 S128x64 S256x1024x64 [2] [0] [0, 1] [1] [] []
  dot_S1024x256x128_S128x64_S1024x256x64_2_0_01_1_n_n_wf : DotDims.WF S1024x256x128 S128x64 S1024x256x64 [2] [0] [0, 1] [1] [] []

variable [Facts₀]

def dot_S256x1024x128_S128x64_S256x1024x64_2_0_01_1_n_n : DotDims S256x1024x128 S128x64 S256x1024x64 where
  lhsContracting := [2]
  rhsContracting := [0]
  lhsNonContracting := [0, 1]
  rhsNonContracting := [1]
  lhsBatch := []
  rhsBatch := []
  wf := dot_S256x1024x128_S128x64_S256x1024x64_2_0_01_1_n_n_wf
def dot_S1024x256x128_S128x64_S1024x256x64_2_0_01_1_n_n : DotDims S1024x256x128 S128x64 S1024x256x64 where
  lhsContracting := [2]
  rhsContracting := [0]
  lhsNonContracting := [0, 1]
  rhsNonContracting := [1]
  lhsBatch := []
  rhsBatch := []
  wf := dot_S1024x256x128_S128x64_S1024x256x64_2_0_01_1_n_n_wf

class Facts : Prop extends Facts₀ where

variable [Facts]
-- ==== Proof.Spec.lean ====
/-
  The mathematics of the certificate, over the extended reals, with no program in sight.

  An edge (a, u) of the complete bipartite graph on 256 + 1024 nodes carries a 64-vector `ed a u`. Three affine
  layers read a 128-vector made of two 64-halves (`cat`): the first two, followed by a clamp from below at the
  zero word's value (`relu`), give each edge the two messages `apRes a u` (from the node vector `ap a`) and
  `ueRes a u` (from `ue u`); `S a` and `T u` are the messages' sums over the edges at one end; the result at
  an edge is the third layer applied to the edge vector beside
  `(S a - apRes a u) + (T u - ueRes a u)`: what the two ends received from their OTHER edges.

  The one law used between two arrangements of this computation: a sum over 1024 consecutive naturals is the sum over
  32 runs of 32 (`sum_runs`), which holds in any commutative additive monoid, hence at the infinities too.
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin

noncomputable section

namespace Cert.Spec

open Idealize.ShloMosaic Idealize.ShloMosaic.ValueIdx

/-- Arrays of rank one, two and three over the extended reals, at literal extents. -/
abbrev T1 (n : Nat) : Type := (⟨1, ![n]⟩ : Shape).Idx → EReal
abbrev T2 (n0 n1 : Nat) : Type := (⟨2, ![n0, n1]⟩ : Shape).Idx → EReal
abbrev T3 (n0 n1 n2 : Nat) : Type := (⟨3, ![n0, n1, n2]⟩ : Shape).Idx → EReal

/-- The value of the f32 zero word (it is `0`; only one step of the proof needs to know). -/
abbrev z : EReal := Ideal.ofBits .f32 0x00000000#32

/-- Two 64-vectors side by side: positions below 64 read the first, the others the second. -/
def cat (h e : Fin 64 → EReal) (k : Fin 128) : EReal :=
  if hk : k.val < 64 then h ⟨k.val, hk⟩ else e ⟨k.val - 64, by have := k.isLt; omega⟩

theorem cat_left (h e : Fin 64 → EReal) (k : Fin 128) (hk : k.val < 64) : cat h e k = h ⟨k.val, hk⟩ := dif_pos hk
theorem cat_right (h e : Fin 64 → EReal) (k : Fin 128) (hk : 64 ≤ k.val) :
    cat h e k = e ⟨k.val - 64, by have := k.isLt; omega⟩ := dif_neg (Nat.not_lt.2 hk)

/-- Feature `d` of an affine layer `x ↦ x·W + b` on a 128-vector. -/
def lin (W : T2 128 64) (b : T1 64) (x : Fin 128 → EReal) (d : Fin 64) : EReal :=
  (∑ k : Fin 128, x k * W (ix2 k d)) + b (ix1 d)

/-- The clamp from below at the zero word's value. -/
def relu (x : EReal) : EReal := max x z

section Messages
variable (ap : T2 256 64) (ue : T2 1024 64) (ed : T3 256 1024 64)
variable (W1 : T2 128 64) (b1 : T1 64) (W2 : T2 128 64) (b2 : T1 64) (W3 : T2 128 64) (b3 : T1 64)

/-- The message edge (a, u) sends to its end `a`. -/
def apRes (a : Fin 256) (u : Fin 1024) (d : Fin 64) : EReal :=
  relu (lin W1 b1 (cat (fun k => ap (ix2 a k)) (fun k => ed (ix3 a u k))) d)

/-- The message edge (a, u) sends to its end `u`. -/
def ueRes (a : Fin 256) (u : Fin 1024) (d : Fin 64) : EReal :=
  relu (lin W2 b2 (cat (fun k => ue (ix2 u k)) (fun k => ed (ix3 a u k))) d)

/-- The same message with the second end named by a natural (zero past the last one): the form a sum over runs of
    consecutive ends is written in. -/
def apResN (a : Fin 256) (u : Nat) (d : Fin 64) : EReal :=
  if h : u < 1024 then apRes ap ed W1 b1 a ⟨u, h⟩ d else 0

/-- What end `a` receives in all: the zero word's value plus the sum over its 1024 edges. -/
def apSum : T2 256 64 := fun i => z + ∑ u : Fin 1024, apRes ap ed W1 b1 (i 0) u (i 1)

/-- What end `u` receives in all: the sum over its 256 edges. -/
def ueSum : T2 1024 64 := fun i => ∑ a : Fin 256, ueRes ue ed W2 b2 a (i 0) (i 1)

/-- The result at edge (a, u), feature d, from ANY two arrays `S`, `T` of per-end totals. -/
def outOf (S : T2 256 64) (T : T2 1024 64) (a : Fin 256) (u : Fin 1024) (d : Fin 64) : EReal :=
  lin W3 b3 (cat (fun k => ed (ix3 a u k))
    (fun k => (S (ix2 a k) - apRes ap ed W1 b1 a u k) + (T (ix2 u k) - ueRes ue ed W2 b2 a u k))) d

/-- The result array: `outOf` at the true totals. -/
def out : T3 256 1024 64 := fun i =>
  outOf ap ue ed W1 b1 W2 b2 W3 b3 (apSum ap ed W1 b1) (ueSum ue ed W2 b2) (i 0) (i 1) (i 2)

end Messages

/-! ## Runs of consecutive naturals -/

/-- A sum over `m * n` consecutive naturals is the sum over `n` runs of `m`. -/
theorem sum_range_runs {M : Type*} [AddCommMonoid M] (g : Nat → M) (m : Nat) :
    ∀ n : Nat, ∑ s ∈ Finset.range n, ∑ j ∈ Finset.range m, g (m * s + j) = ∑ u ∈ Finset.range (m * n), g u
  | 0 => by simp
  | n + 1 => by
    rw [Finset.sum_range_succ, sum_range_runs g m n, Nat.mul_succ, Finset.sum_range_add]

/-- The 1024 ends in 32 runs of 32: with the run's members named by `Fin 32` and the total by `Fin 1024`. -/
theorem sum_runs {M : Type*} [AddCommMonoid M] (g : Nat → M) :
    ∑ s ∈ Finset.range 32, ∑ j : Fin 32, g (32 * s + j.val) = ∑ u : Fin 1024, g u.val := by
  rw [Fin.sum_univ_eq_sum_range (fun u => g u) 1024, ← sum_range_runs g 32 32]
  exact Finset.sum_congr rfl fun s _ => Fin.sum_univ_eq_sum_range (fun j => g (32 * s + j)) 32

end Cert.Spec

end
-- ==== Proof.Pay0.lean ====
/-
  The first kernel's two reductions, read at an index over the extended reals.
-/
import proofs.«167091_j13915694039584_1_alg».proof.Proof.Gen.KernelIdeal.Frame
import proofs.«167091_j13915694039584_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx Cert.Spec

namespace Cert.KernelIdeal.Pay0

open Cert.KernelIdeal Cert.KernelIdeal.Gen

/-! ## The matrix product at an index

At result index (r, d) and contracted position q the left operand is read at (r, q) and the right one at (q, d):
the four coordinates, one statement each. -/

theorem mm_lhs_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem mm_lhs_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem mm_rhs_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem mm_rhs_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- Row `r`, column `d` of the product into the zero accumulator: the sum over the 128 contracted positions. -/
theorem mm_apply (L : FVec Ideal S8192x128 .bf16) (R : FVec Ideal S128x64 .bf16) (r : Fin 8192) (d : Fin 64) :
    matmul dot_S8192x128_S128x64_S8192x64_1_0_0_1_n_n none L R (constant (F := Ideal) S8192x64 .f32 0x00000000#32) (ix2 r d)
      = ∑ k : Fin 128, L (ix2 r k) * R (ix2 k d) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 r d) ((contrEquiv1 dot_S8192x128_S128x64_S8192x64_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S8192x128_S128x64_S8192x64_1_0_0_1_n_n.rhsIdx (ix2 r d) ((contrEquiv1 dot_S8192x128_S128x64_S8192x64_1_0_0_1_n_n 128 rfl rfl).symm k) = ix2 k d := funext fun a => Fin.ext (by
    match a with
    | ⟨0, _⟩ => exact (mm_rhs_0 _ _).trans hk
    | ⟨1, _⟩ => exact mm_rhs_1 _ _)
  rw [el, er]

/-! ## The two halves side by side, and the layer's product at (a, j, d) -/

/-- The joined array at (a, j, k) is `cat` of the two rows at k. -/
theorem concat_apply (x e : FVec Ideal S256x32x64 .f32) (a : Fin 256) (j : Fin 32) (k : Fin 128) :
    concatenate S256x32x128 2 [⟨S256x32x64, x⟩, ⟨S256x32x64, e⟩] concatenates_S256x32x64_S256x32x64_S256x32x128_d2 (ix3 a j k)
      = cat (fun k => x (ix3 a j k)) (fun k => e (ix3 a j k)) k := by
  by_cases hk : k.val < 64
  · rw [cat_left _ _ k hk]
    exact concatenate_pair_apply_left 2 x e _ (ix3 a j k) rfl (ix3 a j ⟨k.val, hk⟩) (fun b => match b with
      | ⟨0, _⟩ => rfl
      | ⟨1, _⟩ => rfl
      | ⟨2, _⟩ => rfl)
  · have hk' : 64 ≤ k.val := Nat.not_lt.1 hk
    rw [cat_right _ _ k hk']
    exact concatenate_pair_apply_right 2 x e _ (ix3 a j k) rfl rfl (ix3 a j ⟨k.val - 64, by have := k.isLt; omega⟩)
      (fun b hb => match b, hb with
        | ⟨0, _⟩, _ => rfl
        | ⟨1, _⟩, _ => rfl
        | ⟨2, _⟩, hb => absurd rfl hb)
      (by show (k.val - 64) + 64 = k.val; omega)

/-- The layer's product, cast back to three axes, at (a, j, d): row `32·a + j` of the joined matrix against column d. -/
theorem mlp_apply (x e : FVec Ideal S256x32x64 .f32) (w : FVec Ideal S128x64 .f32) (a : Fin 256) (j : Fin 32) (d : Fin 64) :
    shapeCast S256x32x64
        (matmul dot_S8192x128_S128x64_S8192x64_1_0_0_1_n_n none
          (truncf .bf16 (shapeCast S8192x128
            (concatenate S256x32x128 2 [⟨S256x32x64, x⟩, ⟨S256x32x64, e⟩] concatenates_S256x32x64_S256x32x64_S256x32x128_d2)
            shapeCasts_S256x32x128_S8192x128) bitsLt_bf16_f32)
          (truncf .bf16 w bitsLt_bf16_f32)
          (constant (F := Ideal) S8192x64 .f32 0x00000000#32))
        shapeCasts_S8192x64_S256x32x64 (ix3 a j d)
      = ∑ k : Fin 128, cat (fun k => x (ix3 a j k)) (fun k => e (ix3 a j k)) k * w (ix2 k d) := by
  have hr : 32 * a.val + j.val < 8192 := by have := a.isLt; have := j.isLt; omega
  refine (shapeCast_apply _ shapeCasts_S8192x64_S256x32x64 (ix3 a j d) (ix2 ⟨32 * a.val + j.val, hr⟩ d) ?_).trans ?_
  · rw [Shape.rowMajor_val_two, Shape.rowMajor_val_three]
    show (32 * a.val + j.val) * 64 + d.val = (a.val * 32 + j.val) * 64 + d.val
    omega
  refine (mm_apply _ _ ⟨32 * a.val + j.val, hr⟩ d).trans ?_
  refine Finset.sum_congr rfl fun k _ => ?_
  rw [truncf_apply, truncf_apply]
  refine congrArg (· * w (ix2 k d)) ?_
  refine (shapeCast_apply _ shapeCasts_S256x32x128_S8192x128 (ix2 ⟨32 * a.val + j.val, hr⟩ k) (ix3 a j k) ?_).trans ?_
  · rw [Shape.rowMajor_val_two, Shape.rowMajor_val_three]
    show (a.val * 32 + j.val) * 128 + k.val = (32 * a.val + j.val) * 128 + k.val
    omega
  exact concat_apply x e a j k

/-! ## The broadcasts at (a, j, ·) -/

/-- The bias [64] → [1,1,64] → [256,32,64] reads its feature. -/
theorem bias_apply (b : FVec Ideal S64 .f32) (a : Fin 256) (j : Fin 32) (d : Fin 64) :
    broadcastTo S256x32x64 (shapeCast S1x1x64 b shapeCasts_S64_S1x1x64) broadcasts_S1x1x64_S256x32x64 (ix3 a j d)
      = b (ix1 d) := by
  refine (broadcastTo_apply _ broadcasts_S1x1x64_S256x32x64 (ix3 a j d)
    (ix3 (⟨0, Nat.one_pos⟩ : Fin 1) (⟨0, Nat.one_pos⟩ : Fin 1) d) (fun c => match c with
      | ⟨0, _⟩ => by show 0 = if (1 : Nat) = 1 then 0 else a.val; rw [if_pos rfl]
      | ⟨1, _⟩ => by show 0 = if (1 : Nat) = 1 then 0 else j.val; rw [if_pos rfl]
      | ⟨2, _⟩ => by show d.val = if (64 : Nat) = 1 then 0 else d.val; rw [if_neg (by decide)])).trans ?_
  refine shapeCast_apply b shapeCasts_S64_S1x1x64 _ (ix1 d) ?_
  rw [Shape.rowMajor_val_one, Shape.rowMajor_val_three]
  show d.val = (0 * 1 + 0) * 64 + d.val
  omega

/-- The node rows [256,64] → [256,1,64] → [256,32,64] read row `a`. -/
theorem rowA_apply (v : FVec Ideal S256x64 .f32) (a : Fin 256) (j : Fin 32) (k : Fin 64) :
    broadcastTo S256x32x64
        (shapeCast S256x1x64 (shapeCast S256x1x64 v shapeCasts_S256x64_S256x1x64) shapeCasts_S256x1x64_S256x1x64)
        broadcasts_S256x1x64_S256x32x64 (ix3 a j k)
      = v (ix2 a k) := by
  rw [shapeCast_self]
  refine (broadcastTo_apply _ broadcasts_S256x1x64_S256x32x64 (ix3 a j k)
    (ix3 a (⟨0, Nat.one_pos⟩ : Fin 1) k) (fun c => match c with
      | ⟨0, _⟩ => by show a.val = if (256 : Nat) = 1 then 0 else a.val; rw [if_neg (by decide)]
      | ⟨1, _⟩ => by show 0 = if (1 : Nat) = 1 then 0 else j.val; rw [if_pos rfl]
      | ⟨2, _⟩ => by show k.val = if (64 : Nat) = 1 then 0 else k.val; rw [if_neg (by decide)])).trans ?_
  refine shapeCast_apply v shapeCasts_S256x64_S256x1x64 _ (ix2 a k) ?_
  rw [Shape.rowMajor_val_two, Shape.rowMajor_val_three]
  show a.val * 64 + k.val = (a.val * 1 + 0) * 64 + k.val
  omega

/-- The run's node rows [32,64] → [1,32,64] → [256,32,64] read row `j`. -/
theorem rowJ_apply (v : FVec Ideal S32x64 .f32) (a : Fin 256) (j : Fin 32) (k : Fin 64) :
    broadcastTo S256x32x64
        (shapeCast S1x32x64 (shapeCast S1x32x64 v shapeCasts_S32x64_S1x32x64) shapeCasts_S1x32x64_S1x32x64)
        broadcasts_S1x32x64_S256x32x64 (ix3 a j k)
      = v (ix2 j k) := by
  rw [shapeCast_self]
  refine (broadcastTo_apply _ broadcasts_S1x32x64_S256x32x64 (ix3 a j k)
    (ix3 (⟨0, Nat.one_pos⟩ : Fin 1) j k) (fun c => match c with
      | ⟨0, _⟩ => by show 0 = if (1 : Nat) = 1 then 0 else a.val; rw [if_pos rfl]
      | ⟨1, _⟩ => by show j.val = if (32 : Nat) = 1 then 0 else j.val; rw [if_neg (by decide)]
      | ⟨2, _⟩ => by show k.val = if (64 : Nat) = 1 then 0 else k.val; rw [if_neg (by decide)])).trans ?_
  refine shapeCast_apply v shapeCasts_S32x64_S1x32x64 _ (ix2 j k) ?_
  rw [Shape.rowMajor_val_two, Shape.rowMajor_val_three]
  show j.val * 64 + k.val = (0 * 32 + j.val) * 64 + k.val
  omega

/-! ## The clamped layer at (a, j, d) -/

/-- The clamped affine layer on the joined rows, at (a, j, d). -/
theorem layer_apply (x e : FVec Ideal S256x32x64 .f32) (w : FVec Ideal S128x64 .f32) (b : FVec Ideal S64 .f32)
    (a : Fin 256) (j : Fin 32) (d : Fin 64) :
    maximumf
        (addf
          (shapeCast S256x32x64
            (matmul dot_S8192x128_S128x64_S8192x64_1_0_0_1_n_n none
              (truncf .bf16 (shapeCast S8192x128
                (concatenate S256x32x128 2 [⟨S256x32x64, x⟩, ⟨S256x32x64, e⟩] concatenates_S256x32x64_S256x32x64_S256x32x128_d2)
                shapeCasts_S256x32x128_S8192x128) bitsLt_bf16_f32)
              (truncf .bf16 w bitsLt_bf16_f32)
              (constant (F := Ideal) S8192x64 .f32 0x00000000#32))
            shapeCasts_S8192x64_S256x32x64)
          (broadcastTo S256x32x64 (shapeCast S1x1x64 b shapeCasts_S64_S1x1x64) broadcasts_S1x1x64_S256x32x64))
        (broadcast S256x32x64 (Scalar.ofBits (F := Ideal) .f32 0x00000000#32)) (ix3 a j d)
      = relu (lin w b (cat (fun k => x (ix3 a j k)) (fun k => e (ix3 a j k))) d) := by
  rw [maximumf_apply, addf_apply, broadcast_apply]
  unfold relu lin
  exact congrArg₂ max (congrArg₂ (· + ·) (mlp_apply x e w a j d) (bias_apply b a j d)) rfl

/-! ## The two reductions -/

/-- Row `a`, feature `d` of the first reduction: the sum over the run's 32 edges of the clamped first layer on the
    node row beside the edge row. -/
theorem pay3_apply (v0 : Vec Ideal S256x64 .f32) (v2 : Vec Ideal S256x32x64 .f32) (w : Vec Ideal S128x64 .f32)
    (b : Vec Ideal S64 .f32) (a : Fin 256) (d : Fin 64) :
    k0_pay3 (F := Ideal) v0 v2 w b (ix2 a d)
      = ∑ j : Fin 32, relu (lin w b (cat (fun k => v0 (ix2 a k)) (fun k => v2 (ix3 a j k))) d) := by
  unfold k0_pay3
  refine (Ideal.multiReduction_add_single _ 0x00000000#32 reduces_S256x32x64_S256x64 (.inl rfl) rfl (ix2 a d)).trans ?_
  refine Finset.sum_congr rfl fun (j : Fin 32) _ => ?_
  have hl : reduces_S256x32x64_S256x64.lift (ix2 a d) j = ix3 a j d := funext fun c => Fin.ext (by
    match c with
    | ⟨0, _⟩ => rfl
    | ⟨1, _⟩ => rfl
    | ⟨2, _⟩ => rfl)
  rw [hl]
  refine (layer_apply _ v2 w b a j d).trans ?_
  exact congrArg (fun h => relu (lin w b (cat h (fun k => v2 (ix3 a j k))) d)) (funext fun k => rowA_apply v0 a j k)

/-- Row `j`, feature `d` of the second reduction: the sum over the 256 first ends of the clamped second layer on the
    run's node row `j` beside the edge row. -/
theorem pay4_apply (v1 : Vec Ideal S32x64 .f32) (v2 : Vec Ideal S256x32x64 .f32) (w : Vec Ideal S128x64 .f32)
    (b : Vec Ideal S64 .f32) (j : Fin 32) (d : Fin 64) :
    k0_pay4 (F := Ideal) v1 v2 w b (ix2 j d)
      = ∑ a : Fin 256, relu (lin w b (cat (fun k => v1 (ix2 j k)) (fun k => v2 (ix3 a j k))) d) := by
  unfold k0_pay4
  refine (Ideal.multiReduction_add_single _ 0x00000000#32 reduces_S256x32x64_S32x64 (.inl rfl) rfl (ix2 j d)).trans ?_
  refine Finset.sum_congr rfl fun (a : Fin 256) _ => ?_
  have hl : reduces_S256x32x64_S32x64.lift (ix2 j d) a = ix3 a j d := funext fun c => Fin.ext (by
    match c with
    | ⟨0, _⟩ => rfl
    | ⟨1, _⟩ => rfl
    | ⟨2, _⟩ => rfl)
  rw [hl]
  refine (layer_apply _ v2 w b a j d).trans ?_
  exact congrArg (fun h => relu (lin w b (cat h (fun k => v2 (ix3 a j k))) d)) (funext fun k => rowJ_apply v1 a j k)

end Cert.KernelIdeal.Pay0

end
-- ==== Proof.Reg0.lean ====
/-
  The first region's two result arrays.

  Its grid walks the 1024 second ends in 32 runs of 32. At run `t` the body forms both messages of the run's
  256 × 32 edges; the messages to the first ends are summed over the run and ADDED into one 256 × 64 block that every
  point shares (set to the zero word at run 0, written back after run 31); the messages to the second ends are summed
  over the 256 first ends and written to the run's own 32 rows. So the first array ends at the zero word's value plus
  the sum over all 1024 edges of an end — 32 runs of 32 regrouped (`Spec.sum_runs`) —, and the second, row by row, at
  the sum over the 256 edges of an end.
-/
import proofs.«167091_j13915694039584_1_alg».proof.Proof.Gen.KernelIdeal.Frame
import proofs.«167091_j13915694039584_1_alg».proof.Proof.Spec
import proofs.«167091_j13915694039584_1_alg».proof.Proof.Pay0
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Cert.Spec
open Idealize.ShloMosaic.Pipeline (Dat)

namespace Cert.KernelIdeal.Reg0

open Cert.KernelIdeal Cert.KernelIdeal.Gen

/-! ## What each case of the body leaves in the two output blocks -/

section Pieces
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A later run: the shared block, holding `xo`, ends at `xo` plus the run's sums. -/
theorem out_B_7 (c : Dev nD) (i : grid0.Coords) (a1 : Memref sig .tc .vmem S256x64 .f32) (h1 : a1.IsWhole)
    (a2 : Memref sig .tc .vmem S32x64 .f32) (h2 : a2.IsWhole) (a3 : Memref sig .tc .vmem S256x32x64 .f32) (h3 : a3.IsWhole)
    (a4 : Memref sig .tc .vmem S128x64 .f32) (h4 : a4.IsWhole) (a5 : Memref sig .tc .vmem S64 .f32) (h5 : a5.IsWhole)
    (a6 : Memref sig .tc .vmem S128x64 .f32) (h6 : a6.IsWhole) (a7 : Memref sig .tc .vmem S64 .f32) (h7 : a7.IsWhole)
    (a8 : Memref sig .tc .vmem S256x64 .f32) (h8 : a8.IsWhole) (a9 : Memref sig .tc .vmem S32x64 .f32) (h9 : a9.IsWhole) (hc : ¬cond0_0 i)
    (x0 : Vec F S256x64 .f32) (x1 : Vec F S32x64 .f32) (x2 : Vec F S256x32x64 .f32) (x3 : Vec F S128x64 .f32)
    (x4 : Vec F S64 .f32) (x5 : Vec F S128x64 .f32) (x6 : Vec F S64 .f32) (xo : Vec F S256x64 .f32) :
    out0_B_7 c i a1 h1 a2 h2 a3 h3 a4 h4 a5 h5 a6 h6 a7 h7 a8 h8 a9 h9 hc x0 x1 x2 x3 x4 x5 x6 xo = k0_pay2 (k0_pay3 x0 x2 x3 x4) xo := by
  unfold out0_B_7
  rw [View.read_writes_eq_canon _ _ _ (cover0_B_7 c i a1 h1 a2 h2 a3 h3 a4 h4 a5 h5 a6 h6 a7 h7 a8 h8 a9 h9 hc x0 x1 x2 x3 x4 x5 x6 xo)]
  unfold kernelRun0_B
  dsimp only
  sl_unfold_words
  rw [View.canon_unit_zero hz2]
  simp only [View.readAt_eq_ld, h1.read_unread, h3.read_unread, h4.read_unread, h5.read_unread, h8.read_unread, View.ld_unit_zero (S := S256x64) hz2,
    View.ld_unit_zero (S := S32x64) hz2, View.ld_unit_zero (S := S256x32x64) hz3, View.ld_unit_zero (S := S128x64) hz2,
    View.ld_unit_zero (S := S64) hz1]

/-- The first run: the shared block is set to the zero block, read back, and ends at it plus the run's sums. -/
theorem out_A_7 (c : Dev nD) (i : grid0.Coords) (a1 : Memref sig .tc .vmem S256x64 .f32) (h1 : a1.IsWhole)
    (a2 : Memref sig .tc .vmem S32x64 .f32) (h2 : a2.IsWhole) (a3 : Memref sig .tc .vmem S256x32x64 .f32) (h3 : a3.IsWhole)
    (a4 : Memref sig .tc .vmem S128x64 .f32) (h4 : a4.IsWhole) (a5 : Memref sig .tc .vmem S64 .f32) (h5 : a5.IsWhole)
    (a6 : Memref sig .tc .vmem S128x64 .f32) (h6 : a6.IsWhole) (a7 : Memref sig .tc .vmem S64 .f32) (h7 : a7.IsWhole)
    (a8 : Memref sig .tc .vmem S256x64 .f32) (h8 : a8.IsWhole) (a9 : Memref sig .tc .vmem S32x64 .f32) (h9 : a9.IsWhole) (hc : cond0_0 i)
    (x0 : Vec F S256x64 .f32) (x1 : Vec F S32x64 .f32) (x2 : Vec F S256x32x64 .f32) (x3 : Vec F S128x64 .f32)
    (x4 : Vec F S64 .f32) (x5 : Vec F S128x64 .f32) (x6 : Vec F S64 .f32) :
    out0_A_7 c i a1 h1 a2 h2 a3 h3 a4 h4 a5 h5 a6 h6 a7 h7 a8 h8 a9 h9 hc x0 x1 x2 x3 x4 x5 x6 = k0_pay2 (k0_pay3 x0 x2 x3 x4) k0_pay1 := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S256x64) hz2, View.readCov_unit_zero (S := S256x64) _ hz2]
  simp only [View.readAt_eq_ld, h1.read_unread, h3.read_unread, h4.read_unread, h5.read_unread, View.ld_unit_zero (S := S256x64) hz2,
    View.ld_unit_zero (S := S32x64) hz2, View.ld_unit_zero (S := S256x32x64) hz3, View.ld_unit_zero (S := S128x64) hz2,
    View.ld_unit_zero (S := S64) hz1]

/-- Either way the run's own block of the second array ends at the run's sums over the first ends. -/
theorem out_B_8 (c : Dev nD) (i : grid0.Coords) (a1 : Memref sig .tc .vmem S256x64 .f32) (h1 : a1.IsWhole)
    (a2 : Memref sig .tc .vmem S32x64 .f32) (h2 : a2.IsWhole) (a3 : Memref sig .tc .vmem S256x32x64 .f32) (h3 : a3.IsWhole)
    (a4 : Memref sig .tc .vmem S128x64 .f32) (h4 : a4.IsWhole) (a5 : Memref sig .tc .vmem S64 .f32) (h5 : a5.IsWhole)
    (a6 : Memref sig .tc .vmem S128x64 .f32) (h6 : a6.IsWhole) (a7 : Memref sig .tc .vmem S64 .f32) (h7 : a7.IsWhole)
    (a8 : Memref sig .tc .vmem S256x64 .f32) (h8 : a8.IsWhole) (a9 : Memref sig .tc .vmem S32x64 .f32) (h9 : a9.IsWhole) (hc : ¬cond0_0 i)
    (x0 : Vec F S256x64 .f32) (x1 : Vec F S32x64 .f32) (x2 : Vec F S256x32x64 .f32) (x3 : Vec F S128x64 .f32)
    (x4 : Vec F S64 .f32) (x5 : Vec F S128x64 .f32) (x6 : Vec F S64 .f32) (xo : Vec F S256x64 .f32) :
    out0_B_8 c i a1 h1 a2 h2 a3 h3 a4 h4 a5 h5 a6 h6 a7 h7 a8 h8 a9 h9 hc x0 x1 x2 x3 x4 x5 x6 xo = k0_pay4 x1 x2 x5 x6 := by
  unfold out0_B_8
  rw [View.read_writes_eq_canon _ _ _ (cover0_B_8 c i a1 h1 a2 h2 a3 h3 a4 h4 a5 h5 a6 h6 a7 h7 a8 h8 a9 h9 hc x0 x1 x2 x3 x4 x5 x6 xo)]
  unfold kernelRun0_B
  dsimp only
  sl_unfold_words
  rw [View.canon_unit_zero hz2]
  simp only [View.readAt_eq_ld, h2.read_unread, h3.read_unread, h6.read_unread, h7.read_unread, View.ld_unit_zero (S := S256x64) hz2,
    View.ld_unit_zero (S := S32x64) hz2, View.ld_unit_zero (S := S256x32x64) hz3, View.ld_unit_zero (S := S128x64) hz2,
    View.ld_unit_zero (S := S64) hz1]

theorem out_A_8 (c : Dev nD) (i : grid0.Coords) (a1 : Memref sig .tc .vmem S256x64 .f32) (h1 : a1.IsWhole)
    (a2 : Memref sig .tc .vmem S32x64 .f32) (h2 : a2.IsWhole) (a3 : Memref sig .tc .vmem S256x32x64 .f32) (h3 : a3.IsWhole)
    (a4 : Memref sig .tc .vmem S128x64 .f32) (h4 : a4.IsWhole) (a5 : Memref sig .tc .vmem S64 .f32) (h5 : a5.IsWhole)
    (a6 : Memref sig .tc .vmem S128x64 .f32) (h6 : a6.IsWhole) (a7 : Memref sig .tc .vmem S64 .f32) (h7 : a7.IsWhole)
    (a8 : Memref sig .tc .vmem S256x64 .f32) (h8 : a8.IsWhole) (a9 : Memref sig .tc .vmem S32x64 .f32) (h9 : a9.IsWhole) (hc : cond0_0 i)
    (x0 : Vec F S256x64 .f32) (x1 : Vec F S32x64 .f32) (x2 : Vec F S256x32x64 .f32) (x3 : Vec F S128x64 .f32)
    (x4 : Vec F S64 .f32) (x5 : Vec F S128x64 .f32) (x6 : Vec F S64 .f32) :
    out0_A_8 c i a1 h1 a2 h2 a3 h3 a4 h4 a5 h5 a6 h6 a7 h7 a8 h8 a9 h9 hc x0 x1 x2 x3 x4 x5 x6 = k0_pay4 x1 x2 x5 x6 := by
  unfold out0_A_8
  rw [View.read_writes_eq_canon _ _ _ (cover0_A_8 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz2]
  simp only [View.readAt_eq_ld, h2.read_unread, h3.read_unread, h6.read_unread, h7.read_unread, View.ld_unit_zero (S := S256x64) hz2,
    View.ld_unit_zero (S := S32x64) hz2, View.ld_unit_zero (S := S256x32x64) hz3, View.ld_unit_zero (S := S128x64) hz2,
    View.ld_unit_zero (S := S64) hz1]

end Pieces

/-! ## At the extended reals -/

variable (V : (c : Dev nD) → (b : Ref sig .tc) → Buf (Elt Ideal) ((c : Thread nD τ).loc b))

/-- The arrays the region finds, by their literal types. -/
abbrev aAp (c : Dev nD) : T2 256 64 := V c main_arg0
abbrev aUe (c : Dev nD) : T2 1024 64 := V c main_arg1
abbrev aEd (c : Dev nD) : T3 256 1024 64 := V c main_arg2
abbrev aW1 (c : Dev nD) : T2 128 64 := V c main_arg3
abbrev ab1 (c : Dev nD) : T1 64 := V c main_arg4
abbrev aW2 (c : Dev nD) : T2 128 64 := V c main_arg5
abbrev ab2 (c : Dev nD) : T1 64 := V c main_arg6

theorem N32 : cfg0.N = 32 := N_0

/-- The second end of edge `j` of run `t`. -/
abbrev endU (t : Fin cfg0.N) (j : Fin 32) : Fin 1024 :=
  ⟨32 * t.val + j.val, by have := t.isLt; have := N32; have := j.isLt; omega⟩

/-- The printed index maps, decided over the 32 runs. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ### Each input block at a run, read where the arrays hold it -/

theorem rd0 (c : Dev nD) (t : Fin cfg0.N) (h0 : win0_0.index t (0 : Fin 2) = 0) (h1 : win0_0.index t (1 : Fin 2) = 0)
    (k : Fin 256) (d : Fin 64) : iblk0 V c 0 t (ix2 k d) = aAp V c (ix2 k d) := by
  unfold iblk0; rw [View.read_apply]
  show V c main_arg0 _ = V c main_arg0 _
  congr 1; funext x; apply Fin.ext
  match x with
  | ⟨0, _⟩ => show win0_0.index t (0 : Fin 2) * 256 + 1 * k.val = k.val; rw [h0]; omega
  | ⟨1, _⟩ => show win0_0.index t (1 : Fin 2) * 64 + 1 * d.val = d.val; rw [h1]; omega

theorem rd1 (c : Dev nD) (t : Fin cfg0.N) (h0 : win0_1.index t (0 : Fin 2) = t.val) (h1 : win0_1.index t (1 : Fin 2) = 0)
    (j : Fin 32) (k : Fin 64) : iblk0 V c 1 t (ix2 j k) = aUe V c (ix2 (endU t j) k) := by
  unfold iblk0; rw [View.read_apply]
  show V c main_arg1 _ = V c main_arg1 _
  congr 1; funext x; apply Fin.ext
  match x with
  | ⟨0, _⟩ => show win0_1.index t (0 : Fin 2) * 32 + 1 * j.val = 32 * t.val + j.val; rw [h0]; omega
  | ⟨1, _⟩ => show win0_1.index t (1 : Fin 2) * 64 + 1 * k.val = k.val; rw [h1]; omega

theorem rd2 (c : Dev nD) (t : Fin cfg0.N) (h0 : win0_2.index t (0 : Fin 3) = 0) (h1 : win0_2.index t (1 : Fin 3) = t.val)
    (h2 : win0_2.index t (2 : Fin 3) = 0) (a : Fin 256) (j : Fin 32) (k : Fin 64) :
    iblk0 V c 2 t (ix3 a j k) = aEd V c (ix3 a (endU t j) k) := by
  unfold iblk0; rw [View.read_apply]
  show V c main_arg2 _ = V c main_arg2 _
  congr 1; funext x; apply Fin.ext
  match x with
  | ⟨0, _⟩ => show win0_2.index t (0 : Fin 3) * 256 + 1 * a.val = a.val; rw [h0]; omega
  | ⟨1, _⟩ => show win0_2.index t (1 : Fin 3) * 32 + 1 * j.val = 32 * t.val + j.val; rw [h1]; omega
  | ⟨2, _⟩ => show win0_2.index t (2 : Fin 3) * 64 + 1 * k.val = k.val; rw [h2]; omega

theorem rd3 (c : Dev nD) (t : Fin cfg0.N) (h0 : win0_3.index t (0 : Fin 2) = 0) (h1 : win0_3.index t (1 : Fin 2) = 0)
    (k : Fin 128) (d : Fin 64) : iblk0 V c 3 t (ix2 k d) = aW1 V c (ix2 k d) := by
  unfold iblk0; rw [View.read_apply]
  show V c main_arg3 _ = V c main_arg3 _
  congr 1; funext x; apply Fin.ext
  match x with
  | ⟨0, _⟩ => show win0_3.index t (0 : Fin 2) * 128 + 1 * k.val = k.val; rw [h0]; omega
  | ⟨1, _⟩ => show win0_3.index t (1 : Fin 2) * 64 + 1 * d.val = d.val; rw [h1]; omega

theorem rd4 (c : Dev nD) (t : Fin cfg0.N) (h0 : win0_4.index t (0 : Fin 1) = 0) (d : Fin 64) :
    iblk0 V c 4 t (ix1 d) = ab1 V c (ix1 d) := by
  unfold iblk0; rw [View.read_apply]
  show V c main_arg4 _ = V c main_arg4 _
  congr 1; funext x; apply Fin.ext
  match x with
  | ⟨0, _⟩ => show win0_4.index t (0 : Fin 1) * 64 + 1 * d.val = d.val; rw [h0]; omega

theorem rd5 (c : Dev nD) (t : Fin cfg0.N) (h0 : win0_5.index t (0 : Fin 2) = 0) (h1 : win0_5.index t (1 : Fin 2) = 0)
    (k : Fin 128) (d : Fin 64) : iblk0 V c 5 t (ix2 k d) = aW2 V c (ix2 k d) := by
  unfold iblk0; rw [View.read_apply]
  show V c main_arg5 _ = V c main_arg5 _
  congr 1; funext x; apply Fin.ext
  match x with
  | ⟨0, _⟩ => show win0_5.index t (0 : Fin 2) * 128 + 1 * k.val = k.val; rw [h0]; omega
  | ⟨1, _⟩ => show win0_5.index t (1 : Fin 2) * 64 + 1 * d.val = d.val; rw [h1]; omega

theorem rd6 (c : Dev nD) (t : Fin cfg0.N) (h0 : win0_6.index t (0 : Fin 1) = 0) (d : Fin 64) :
    iblk0 V c 6 t (ix1 d) = ab2 V c (ix1 d) := by
  unfold iblk0; rw [View.read_apply]
  show V c main_arg6 _ = V c main_arg6 _
  congr 1; funext x; apply Fin.ext
  match x with
  | ⟨0, _⟩ => show win0_6.index t (0 : Fin 1) * 64 + 1 * d.val = d.val; rw [h0]; omega

/-! ### One run's two reductions -/

/-- What run `t` adds to the first ends' totals: its 32 edges' messages, summed. -/
theorem pay3_at (c : Dev nD) (t : Fin cfg0.N) (a : Fin 256) (d : Fin 64) :
    k0_pay3 (F := Ideal) (iblk0 V c 0 t) (iblk0 V c 2 t) (iblk0 V c 3 t) (iblk0 V c 4 t) (ix2 a d)
      = ∑ j : Fin 32, apResN (aAp V c) (aEd V c) (aW1 V c) (ab1 V c) a (32 * t.val + j.val) d := by
  obtain ⟨f00, f01, f10, f11, f20, f21, f22, f30, f31, f4, f50, f51, f6, f70, f71, f80, f81⟩ := idx_facts t
  refine (Pay0.pay3_apply (iblk0 V c 0 t) (iblk0 V c 2 t) (iblk0 V c 3 t) (iblk0 V c 4 t) a d).trans ?_
  refine Finset.sum_congr rfl fun j _ => ?_
  have hu : 32 * t.val + j.val < 1024 := (endU t j).isLt
  unfold apResN
  rw [dif_pos hu]
  show _ = apRes (aAp V c) (aEd V c) (aW1 V c) (ab1 V c) a (endU t j) d
  unfold apRes lin
  simp only [rd0 V c t f00 f01, rd2 V c t f20 f21 f22, rd3 V c t f30 f31, rd4 V c t f4]

/-- What run `t` writes for its own 32 second ends: each one's total over its 256 edges. -/
theorem pay4_at (c : Dev nD) (t : Fin cfg0.N) (j : Fin 32) (d : Fin 64) :
    k0_pay4 (F := Ideal) (iblk0 V c 1 t) (iblk0 V c 2 t) (iblk0 V c 5 t) (iblk0 V c 6 t) (ix2 j d)
      = ueSum (aUe V c) (aEd V c) (aW2 V c) (ab2 V c) (ix2 (endU t j) d) := by
  obtain ⟨f00, f01, f10, f11, f20, f21, f22, f30, f31, f4, f50, f51, f6, f70, f71, f80, f81⟩ := idx_facts t
  refine (Pay0.pay4_apply (iblk0 V c 1 t) (iblk0 V c 2 t) (iblk0 V c 5 t) (iblk0 V c 6 t) j d).trans ?_
  show _ = ∑ a : Fin 256, ueRes (aUe V c) (aEd V c) (aW2 V c) (ab2 V c) a (endU t j) d
  refine Finset.sum_congr rfl fun a _ => ?_
  unfold ueRes lin
  simp only [rd1 V c t f10 f11, rd2 V c t f20 f21 f22, rd5 V c t f50 f51, rd6 V c t f6]

/-- The update of the shared block, entry by entry: what it held plus what the run adds. -/
theorem pay2_apply (v35 : FVec Ideal S256x64 .f32) (v40 : Vec Ideal S256x64 .f32) (i : S256x64.Idx) :
    k0_pay2 (F := Ideal) v35 v40 i = v40 i + v35 i := by
  unfold k0_pay2
  show addf (shapeCast S256x64 v40 _) v35 i = _
  rw [shapeCast_self]
  rfl

/-! ### The shared block after each run -/

theorem outs_first (c : Dev nD) (t : Fin cfg0.N) (h0 : t.val % 32 = 0) :
    outsAt0 V c t.val t.isLt
      = (k0_pay2 (k0_pay3 (iblk0 V c 0 t) (iblk0 V c 2 t) (iblk0 V c 3 t) (iblk0 V c 4 t)) (k0_pay1 (F := Ideal)),
         k0_pay4 (iblk0 V c 1 t) (iblk0 V c 2 t) (iblk0 V c 5 t) (iblk0 V c 6 t)) := by
  rw [outsAt0_A V c t h0]
  exact Prod.ext
    (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) (iblk0 V c 6 t))
    (out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) (iblk0 V c 6 t))

theorem outs_later (c : Dev nD) (t : Fin cfg0.N) (h0 : ¬t.val % 32 = 0) :
    outsAt0 V c t.val t.isLt
      = (k0_pay2 (k0_pay3 (iblk0 V c 0 t) (iblk0 V c 2 t) (iblk0 V c 3 t) (iblk0 V c 4 t))
           (outsAt0 V c (t.val - 1) (Nat.lt_of_le_of_lt (Nat.sub_le _ _) t.isLt)).1,
         k0_pay4 (iblk0 V c 1 t) (iblk0 V c 2 t) (iblk0 V c 5 t) (iblk0 V c 6 t)) := by
  rw [outsAt0_B V c t h0]
  exact Prod.ext
    (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).1)
    (out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).1)

/-- After run `n` the shared block holds the zero word's value plus the sums of runs 0 … n. -/
theorem shared_eq (c : Dev nD) (a : Fin 256) (d : Fin 64) : ∀ (n : Nat) (h : n < cfg0.N),
    (outsAt0 V c n h).1 (ix2 a d)
      = z + ∑ s ∈ Finset.range (n + 1), ∑ j : Fin 32, apResN (aAp V c) (aEd V c) (aW1 V c) (ab1 V c) a (32 * s + j.val) d
  | 0, h => by
    rw [outs_first V c ⟨0, h⟩ rfl]
    dsimp only
    rw [pay2_apply, pay3_at V c ⟨0, h⟩ a d, Finset.sum_range_one]
    rfl
  | n + 1, h => by
    have hN := N32
    have hB : ¬(⟨n + 1, h⟩ : Fin cfg0.N).val % 32 = 0 := by dsimp only; omega
    rw [outs_later V c ⟨n + 1, h⟩ hB]
    dsimp only
    rw [pay2_apply, pay3_at V c ⟨n + 1, h⟩ a d]
    show (outsAt0 V c n _).1 (ix2 a d) + _ = _
    rw [shared_eq c a d n (Nat.lt_of_succ_lt h), Finset.sum_range_succ _ (n + 1), add_assoc]

/-! ### The two arrays after the region -/

/-- After the last run the shared block holds each first end's total: 32 runs of 32 are the 1024 edges. -/
theorem shared_last (c : Dev nD) (a : Fin 256) (d : Fin 64) (h : 31 < cfg0.N) :
    (outsAt0 V c 31 h).1 (ix2 a d) = apSum (aAp V c) (aEd V c) (aW1 V c) (ab1 V c) (ix2 a d) := by
  rw [shared_eq V c a d 31 h]
  show z + _ = z + ∑ u : Fin 1024, apRes (aAp V c) (aEd V c) (aW1 V c) (ab1 V c) a u d
  refine congrArg (z + ·) ?_
  refine (sum_runs (fun u => apResN (aAp V c) (aEd V c) (aW1 V c) (ab1 V c) a u d)).trans ?_
  exact Finset.sum_congr rfl fun u _ => by unfold apResN; rw [dif_pos u.isLt]

/-- The one write-back of the shared block, after run 31, writes the first ends' totals. -/
theorem flushed7_eq (c : Dev nD) (t : Fin cfg0.N) (hf : (cfg0.win 7).flush t = true) :
    (dat0 V c).flushed 7 t
      = ((cfg0.win 7).blk t).view.read (Elt Ideal) (apSum (aAp V c) (aEd V c) (aW1 V c) (ab1 V c)) := by
  have hN := N32
  have h31 : t.val = 31 := by have := (flush0_7 t).mp hf; have := t.isLt; omega
  obtain ⟨f00, f01, f10, f11, f20, f21, f22, f30, f31, f4, f50, f51, f6, f70, f71, f80, f81⟩ := idx_facts t
  show (cfg0.win 7).cut (grid0.coords t) ((dat0 V c).after 7 t) = _
  rw [after0_7]
  funext j
  obtain ⟨a, d, rfl⟩ : ∃ (a : Fin 256) (d : Fin 64), j = ix2 a d := ⟨j 0, j 1, eq_ix2 j⟩
  rw [View.read_apply]
  have hemb : ((cfg0.win 7).blk t).view.emb (ix2 a d) = ix2 a d := by
    funext x; apply Fin.ext
    match x with
    | ⟨0, _⟩ => show win0_7.index t (0 : Fin 2) * 256 + 1 * a.val = a.val; rw [f70]; omega
    | ⟨1, _⟩ => show win0_7.index t (1 : Fin 2) * 64 + 1 * d.val = d.val; rw [f71]; omega
  rw [hemb]
  show (outsAt0 V c t.val t.isLt).1 (ix2 a d) = _
  have key : ∀ (n : Nat) (h : n < cfg0.N), n = 31 →
      (outsAt0 V c n h).1 (ix2 a d) = apSum (aAp V c) (aEd V c) (aW1 V c) (ab1 V c) (ix2 a d) :=
    fun n h e => by subst e; exact shared_last V c a d h
  exact key t.val t.isLt h31

/-- Every run writes back its own 32 rows of the second ends' totals. -/
theorem flushed8_eq (c : Dev nD) (t : Fin cfg0.N) :
    (dat0 V c).flushed 8 t
      = ((cfg0.win 8).blk t).view.read (Elt Ideal) (ueSum (aUe V c) (aEd V c) (aW2 V c) (ab2 V c)) := by
  obtain ⟨f00, f01, f10, f11, f20, f21, f22, f30, f31, f4, f50, f51, f6, f70, f71, f80, f81⟩ := idx_facts t
  show (cfg0.win 8).cut (grid0.coords t) ((dat0 V c).after 8 t) = _
  rw [after0_8]
  have h2 : (outsAt0 V c t.val t.isLt).2
      = k0_pay4 (iblk0 V c 1 t) (iblk0 V c 2 t) (iblk0 V c 5 t) (iblk0 V c 6 t) := by
    by_cases h0 : t.val % 32 = 0
    · rw [outs_first V c t h0]
    · rw [outs_later V c t h0]
  rw [h2]
  funext j
  obtain ⟨jj, d, rfl⟩ : ∃ (jj : Fin 32) (d : Fin 64), j = ix2 jj d := ⟨j 0, j 1, eq_ix2 j⟩
  rw [View.read_apply]
  have hemb : ((cfg0.win 8).blk t).view.emb (ix2 jj d) = ix2 (endU t jj) d := by
    funext x; apply Fin.ext
    match x with
    | ⟨0, _⟩ => show win0_8.index t (0 : Fin 2) * 32 + 1 * jj.val = 32 * t.val + jj.val; rw [f80]; omega
    | ⟨1, _⟩ => show win0_8.index t (1 : Fin 2) * 64 + 1 * d.val = d.val; rw [f81]; omega
  rw [hemb]
  exact pay4_at V c t jj d

theorem mem_blk7 (t : Fin cfg0.N) (i : S256x64.Idx) :
    i ∈ ((cfg0.win 7).blk t).view.set ↔ ∀ a : Fin 2, win0_7.index t a * S256x64.size a ≤ (i a).val
      ∧ (i a).val < win0_7.index t a * S256x64.size a + S256x64.size a := by
  show i ∈ ((View.whole main_v0_0).slice (win0_7.rect t)).set ↔ _
  rw [View.set_slice_whole, Rect.mem_set_unit]
  exact Iff.rfl

theorem mem_blk8 (t : Fin cfg0.N) (i : S1024x64.Idx) :
    i ∈ ((cfg0.win 8).blk t).view.set ↔ ∀ a : Fin 2, win0_8.index t a * S32x64.size a ≤ (i a).val
      ∧ (i a).val < win0_8.index t a * S32x64.size a + S32x64.size a := by
  show i ∈ ((View.whole main_v0_1).slice (win0_8.rect t)).set ↔ _
  rw [View.set_slice_whole, Rect.mem_set_unit]
  exact Iff.rfl

/-- The shared block IS the first array: the last run's write-back covers it. -/
theorem cover7 (i : S256x64.Idx) :
    ∃ t : Fin cfg0.N, (cfg0.win 7).flush t = true ∧ i ∈ ((cfg0.win 7).blk t).view.set := by
  have hN := N32
  have hi0 : (i 0).val < 256 := (i 0).isLt
  have hi1 : (i 1).val < 64 := (i 1).isLt
  refine ⟨⟨31, by omega⟩, (flush0_7 _).mpr rfl, ?_⟩
  obtain ⟨f00, f01, f10, f11, f20, f21, f22, f30, f31, f4, f50, f51, f6, f70, f71, f80, f81⟩ :=
    idx_facts (⟨31, by omega⟩ : Fin cfg0.N)
  rw [mem_blk7]
  intro a
  match a with
  | ⟨0, _⟩ => show win0_7.index _ (0 : Fin 2) * 256 ≤ (i 0).val ∧ (i 0).val < win0_7.index _ (0 : Fin 2) * 256 + 256; rw [f70]; omega
  | ⟨1, _⟩ => show win0_7.index _ (1 : Fin 2) * 64 ≤ (i 1).val ∧ (i 1).val < win0_7.index _ (1 : Fin 2) * 64 + 64; rw [f71]; omega

/-- Row `r` of the second array is written by run `r / 32`. -/
theorem cover8 (i : S1024x64.Idx) :
    ∃ t : Fin cfg0.N, (cfg0.win 8).flush t = true ∧ i ∈ ((cfg0.win 8).blk t).view.set := by
  have hN := N32
  have hi0 : (i 0).val < 1024 := (i 0).isLt
  have hi1 : (i 1).val < 64 := (i 1).isLt
  refine ⟨⟨(i 0).val / 32, by omega⟩, flush0_8 _, ?_⟩
  obtain ⟨f00, f01, f10, f11, f20, f21, f22, f30, f31, f4, f50, f51, f6, f70, f71, f80, f81⟩ :=
    idx_facts (⟨(i 0).val / 32, by omega⟩ : Fin cfg0.N)
  rw [mem_blk8]
  intro a
  match a with
  | ⟨0, _⟩ => show win0_8.index _ (0 : Fin 2) * 32 ≤ (i 0).val ∧ (i 0).val < win0_8.index _ (0 : Fin 2) * 32 + 32; rw [f80]; dsimp only; omega
  | ⟨1, _⟩ => show win0_8.index _ (1 : Fin 2) * 64 ≤ (i 1).val ∧ (i 1).val < win0_8.index _ (1 : Fin 2) * 64 + 64; rw [f81]; omega

/-- The first array after the region: each first end's total. -/
theorem final7 (c : Dev nD) : (dat0 V c).arrAt 7 cfg0.N = apSum (aAp V c) (aEd V c) (aW1 V c) (ab1 V c) :=
  (dat0 V c).arrAt_eq_of_cover 7 (apSum (aAp V c) (aEd V c) (aW1 V c) (ab1 V c)) (fun t hf => flushed7_eq V c t hf) cover7

/-- The second array after the region: each second end's total. -/
theorem final8 (c : Dev nD) : (dat0 V c).arrAt 8 cfg0.N = ueSum (aUe V c) (aEd V c) (aW2 V c) (ab2 V c) :=
  (dat0 V c).arrAt_eq_of_cover 8 (ueSum (aUe V c) (aEd V c) (aW2 V c) (ab2 V c)) (fun t _ => flushed8_eq V c t) cover8

end Cert.KernelIdeal.Reg0

end
-- ==== Proof.Pay1.lean ====
/-
  The second kernel's block result, read at an index over the extended reals.
-/
import proofs.«167091_j13915694039584_1_alg».proof.Proof.Gen.KernelIdeal.Frame
import proofs.«167091_j13915694039584_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx Cert.Spec

namespace Cert.KernelIdeal.Pay1

open Cert.KernelIdeal Cert.KernelIdeal.Gen

/-! ## The matrix product at an index

Row `r` of an 8192 × 128 matrix against column `d` of a 128 × 64 one, accumulated into zero: the sum over the
128 positions of the row. -/

theorem lhs_mm_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_mm_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_mm_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_mm_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product into the zero splat, at (r, d): the sum over `k` of row `r` of the left factor times column `d` of
    the right one. -/
theorem mm_apply (A : FVec Ideal S8192x128 .bf16) (B : FVec Ideal S128x64 .bf16) (r : Fin 8192) (d : Fin 64) :
    matmul dot_S8192x128_S128x64_S8192x64_1_0_0_1_n_n none A B (constant (F := Ideal) S8192x64 .f32 0x00000000#32) (ix2 r d)
      = ∑ k : Fin 128, A (ix2 r k) * B (ix2 k d) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 r d) ((contrEquiv1 dot_S8192x128_S128x64_S8192x64_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S8192x128_S128x64_S8192x64_1_0_0_1_n_n.rhsIdx (ix2 r d) ((contrEquiv1 dot_S8192x128_S128x64_S8192x64_1_0_0_1_n_n 128 rfl rfl).symm k) = ix2 k d := funext fun a => Fin.ext (by
    match a with
    | ⟨0, _⟩ => exact (rhs_mm_0 _ _).trans hk
    | ⟨1, _⟩ => exact rhs_mm_1 _ _)
  rw [el, er]

/-! ## The two halves side by side, and the layer's product at an edge -/

/-- The concatenation along the last axis of two 64 × 128 × 64 arrays, at (a, u, k): `cat` of their two rows at
    (a, u). -/
theorem cat_apply (x e : FVec Ideal S64x128x64 .f32)
    (hc : Shape.Concatenates [S64x128x64, S64x128x64] S64x128x128 2) (a : Fin 64) (u : Fin 128) (k : Fin 128) :
    concatenate S64x128x128 2 [⟨S64x128x64, x⟩, ⟨S64x128x64, e⟩] hc (ix3 a u k)
      = cat (fun k => x (ix3 a u k)) (fun k => e (ix3 a u k)) k := by
  by_cases hk : k.val < 64
  · rw [cat_left _ _ k hk]
    exact concatenate_pair_apply_left (2 : Fin 3) x e hc (ix3 a u k) rfl (ix3 a u ⟨k.val, hk⟩)
      (fun b => match b with | ⟨0, _⟩ => rfl | ⟨1, _⟩ => rfl | ⟨2, _⟩ => rfl)
  · have hk' : 64 ≤ k.val := Nat.not_lt.1 hk
    rw [cat_right _ _ k hk']
    exact concatenate_pair_apply_right (2 : Fin 3) x e hc (ix3 a u k) rfl rfl
      (ix3 a u ⟨k.val - 64, by have := k.isLt; omega⟩)
      (fun b => match b with
        | ⟨0, _⟩ => fun _ => rfl
        | ⟨1, _⟩ => fun _ => rfl
        | ⟨2, _⟩ => fun hne => absurd rfl hne)
      (by show k.val - 64 + 64 = k.val; omega)

/-- One layer's product at edge (a, u), feature d: rows (a, u) of the two arrays side by side, as row 128·a + u of
    the 8192 × 128 matrix, against column d of the weights. -/
theorem mlp_apply (x e : FVec Ideal S64x128x64 .f32) (w : FVec Ideal S128x64 .f32)
    (hc : Shape.Concatenates [S64x128x64, S64x128x64] S64x128x128 2)
    (h1 : S64x128x128.ShapeCasts S8192x128) (h2 : S8192x64.ShapeCasts S64x128x64)
    (hb : FTy.bits .bf16 < FTy.bits .f32) (a : Fin 64) (u : Fin 128) (d : Fin 64) :
    shapeCast S64x128x64
        (matmul dot_S8192x128_S128x64_S8192x64_1_0_0_1_n_n none
          (truncf .bf16 (shapeCast S8192x128 (concatenate S64x128x128 2 [⟨S64x128x64, x⟩, ⟨S64x128x64, e⟩] hc) h1) hb)
          (truncf .bf16 w hb) (constant (F := Ideal) S8192x64 .f32 0x00000000#32)) h2 (ix3 a u d)
      = ∑ k : Fin 128, cat (fun k => x (ix3 a u k)) (fun k => e (ix3 a u k)) k * w (ix2 k d) := by
  have hr : 128 * a.val + u.val < 8192 := by have := a.isLt; have := u.isLt; omega
  refine (shapeCast_apply _ h2 (ix3 a u d) (ix2 ⟨128 * a.val + u.val, hr⟩ d) ?_).trans ?_
  · rw [Shape.rowMajor_val_two, Shape.rowMajor_val_three]
    show (128 * a.val + u.val) * 64 + d.val = (a.val * 128 + u.val) * 64 + d.val
    omega
  rw [mm_apply]
  refine Finset.sum_congr rfl fun k _ => ?_
  rw [truncf_apply, truncf_apply]
  refine congrArg (· * w (ix2 k d)) ?_
  refine (shapeCast_apply _ h1 (ix2 ⟨128 * a.val + u.val, hr⟩ k) (ix3 a u k) ?_).trans (cat_apply x e hc a u k)
  rw [Shape.rowMajor_val_two, Shape.rowMajor_val_three]
  show (a.val * 128 + u.val) * 128 + k.val = (128 * a.val + u.val) * 128 + k.val
  omega

/-! ## The three broadcasts at an index -/

/-- A 64 × 64 array given a unit middle axis and repeated along it reads row `a`. -/
theorem rowA_apply (v : FVec Ideal S64x64 .f32) (h1 : S64x64.ShapeCasts S64x1x64)
    (hb : S64x1x64.Broadcasts S64x128x64) (a : Fin 64) (u : Fin 128) (d : Fin 64) :
    broadcastTo S64x128x64 (shapeCast S64x1x64 v h1) hb (ix3 a u d) = v (ix2 a d) := by
  refine (broadcastTo_apply _ hb (ix3 a u d) (ix3 a ⟨0, Nat.one_pos⟩ d) (fun b => ?_)).trans ?_
  · match b with
    | ⟨0, _⟩ => show a.val = if (64 : Nat) = 1 then 0 else a.val; rw [if_neg (by decide)]
    | ⟨1, _⟩ => show 0 = if (1 : Nat) = 1 then 0 else u.val; rw [if_pos rfl]
    | ⟨2, _⟩ => show d.val = if (64 : Nat) = 1 then 0 else d.val; rw [if_neg (by decide)]
  · refine shapeCast_apply v h1 (ix3 a ⟨0, Nat.one_pos⟩ d) (ix2 a d) ?_
    rw [Shape.rowMajor_val_two, Shape.rowMajor_val_three]
    show a.val * 64 + d.val = (a.val * 1 + 0) * 64 + d.val
    omega

/-- A 128 × 64 array given a unit leading axis and repeated along it reads row `u`. -/
theorem rowU_apply (v : FVec Ideal S128x64 .f32) (h1 : S128x64.ShapeCasts S1x128x64)
    (hb : S1x128x64.Broadcasts S64x128x64) (a : Fin 64) (u : Fin 128) (d : Fin 64) :
    broadcastTo S64x128x64 (shapeCast S1x128x64 v h1) hb (ix3 a u d) = v (ix2 u d) := by
  refine (broadcastTo_apply _ hb (ix3 a u d) (ix3 ⟨0, Nat.one_pos⟩ u d) (fun b => ?_)).trans ?_
  · match b with
    | ⟨0, _⟩ => show 0 = if (1 : Nat) = 1 then 0 else a.val; rw [if_pos rfl]
    | ⟨1, _⟩ => show u.val = if (128 : Nat) = 1 then 0 else u.val; rw [if_neg (by decide)]
    | ⟨2, _⟩ => show d.val = if (64 : Nat) = 1 then 0 else d.val; rw [if_neg (by decide)]
  · refine shapeCast_apply v h1 (ix3 ⟨0, Nat.one_pos⟩ u d) (ix2 u d) ?_
    rw [Shape.rowMajor_val_two, Shape.rowMajor_val_three]
    show u.val * 64 + d.val = (0 * 128 + u.val) * 64 + d.val
    omega

/-- A 64-vector given two unit leading axes and repeated along both reads position `d`. -/
theorem bias_apply (v : FVec Ideal S64 .f32) (h1 : S64.ShapeCasts S1x1x64)
    (hb : S1x1x64.Broadcasts S64x128x64) (a : Fin 64) (u : Fin 128) (d : Fin 64) :
    broadcastTo S64x128x64 (shapeCast S1x1x64 v h1) hb (ix3 a u d) = v (ix1 d) := by
  refine (broadcastTo_apply _ hb (ix3 a u d) (ix3 ⟨0, Nat.one_pos⟩ ⟨0, Nat.one_pos⟩ d) (fun b => ?_)).trans ?_
  · match b with
    | ⟨0, _⟩ => show 0 = if (1 : Nat) = 1 then 0 else a.val; rw [if_pos rfl]
    | ⟨1, _⟩ => show 0 = if (1 : Nat) = 1 then 0 else u.val; rw [if_pos rfl]
    | ⟨2, _⟩ => show d.val = if (64 : Nat) = 1 then 0 else d.val; rw [if_neg (by decide)]
  · refine shapeCast_apply v h1 (ix3 ⟨0, Nat.one_pos⟩ ⟨0, Nat.one_pos⟩ d) (ix1 d) ?_
    rw [Shape.rowMajor_val_one, Shape.rowMajor_val_three]
    show d.val = (0 * 1 + 0) * 64 + d.val
    omega

/-! ## One affine layer at an edge -/

/-- The product plus the repeated bias, at (a, u, d): the layer `lin` on the two rows side by side. -/
theorem layer_apply (x e : FVec Ideal S64x128x64 .f32) (w : FVec Ideal S128x64 .f32) (b : FVec Ideal S64 .f32)
    (hc : Shape.Concatenates [S64x128x64, S64x128x64] S64x128x128 2)
    (h1 : S64x128x128.ShapeCasts S8192x128) (h2 : S8192x64.ShapeCasts S64x128x64)
    (hb : FTy.bits .bf16 < FTy.bits .f32) (h3 : S64.ShapeCasts S1x1x64) (hbb : S1x1x64.Broadcasts S64x128x64)
    (a : Fin 64) (u : Fin 128) (d : Fin 64) :
    addf (shapeCast S64x128x64
        (matmul dot_S8192x128_S128x64_S8192x64_1_0_0_1_n_n none
          (truncf .bf16 (shapeCast S8192x128 (concatenate S64x128x128 2 [⟨S64x128x64, x⟩, ⟨S64x128x64, e⟩] hc) h1) hb)
          (truncf .bf16 w hb) (constant (F := Ideal) S8192x64 .f32 0x00000000#32)) h2)
        (broadcastTo S64x128x64 (shapeCast S1x1x64 b h3) hbb) (ix3 a u d)
      = lin w b (cat (fun k => x (ix3 a u k)) (fun k => e (ix3 a u k))) d := by
  rw [addf_apply, mlp_apply, bias_apply]
  rfl

/-! ## The body's values at an edge -/

/-- The first message before it is subtracted: the clamped first layer on the node row `a` beside the edge row. -/
theorem pay4_apply (v0 : FVec Ideal S64x64 .f32) (v2 : FVec Ideal S64x128x64 .f32) (v13 : FVec Ideal S128x64 .f32)
    (v17 : FVec Ideal S64 .f32) (a : Fin 64) (u : Fin 128) (d : Fin 64) :
    k1_pay4 (F := Ideal) v0 v2 v13 v17 (ix3 a u d)
      = relu (lin v13 v17 (cat (fun k => v0 (ix2 a k)) (fun k => v2 (ix3 a u k))) d) := by
  unfold k1_pay4
  refine (maximumf_apply _ _ _).trans ?_
  unfold relu
  refine congrArg (fun t => max t z) ?_
  refine (layer_apply _ v2 v13 v17 _ _ _ _ _ _ a u d).trans ?_
  refine congrArg (fun f => lin v13 v17 (cat f (fun k => v2 (ix3 a u k))) d) (funext fun k => ?_)
  rw [shapeCast_self]
  exact rowA_apply v0 _ _ a u k

/-- The second message before its clamp: the second layer on the node row `u` beside the edge row. -/
theorem pay5_apply (v1 : FVec Ideal S128x64 .f32) (v2 : FVec Ideal S64x128x64 .f32) (v29 : FVec Ideal S128x64 .f32)
    (v33 : FVec Ideal S64 .f32) (a : Fin 64) (u : Fin 128) (d : Fin 64) :
    k1_pay5 (F := Ideal) v1 v2 v29 v33 (ix3 a u d)
      = lin v29 v33 (cat (fun k => v1 (ix2 u k)) (fun k => v2 (ix3 a u k))) d := by
  unfold k1_pay5
  refine (layer_apply _ v2 v29 v33 _ _ _ _ _ _ a u d).trans ?_
  refine congrArg (fun f => lin v29 v33 (cat f (fun k => v2 (ix3 a u k))) d) (funext fun k => ?_)
  rw [shapeCast_self]
  exact rowU_apply v1 _ _ a u k

/-- The stored value: the third layer on the edge row beside the two totals less the two messages, the second
    message clamped here at `c`. -/
theorem pay1_apply (v2 : FVec Ideal S64x128x64 .f32) (v4 : FVec Ideal S64x64 .f32) (v6 : FVec Ideal S128x64 .f32)
    (v22 v36 : FVec Ideal S64x128x64 .f32) (c : Ideal .f32) (v49 : FVec Ideal S128x64 .f32) (v53 : FVec Ideal S64 .f32)
    (a : Fin 64) (u : Fin 128) (d : Fin 64) :
    k1_pay1 (F := Ideal) v2 v4 v6 v22 v36 c v49 v53 (ix3 a u d)
      = lin v49 v53 (cat (fun k => v2 (ix3 a u k))
          (fun k => (v4 (ix2 a k) - v22 (ix3 a u k)) + (v6 (ix2 u k) - max (v36 (ix3 a u k)) c))) d := by
  unfold k1_pay1
  refine (layer_apply v2 _ v49 v53 _ _ _ _ _ _ a u d).trans ?_
  refine congrArg (fun f => lin v49 v53 (cat (fun k => v2 (ix3 a u k)) f) d) (funext fun k => ?_)
  rw [addf_apply, subf_apply, subf_apply, maximumf_apply, broadcast_apply, rowA_apply, rowU_apply]

/-- Entry (a, u, d) of what the second kernel's body leaves in its output block, from its eleven input blocks: the
    third layer on the edge row beside what the two ends' totals (`x3`, `x4`) hold beyond this edge's own two
    messages. -/
theorem out1_apply (x0 : Vec Ideal S64x64 .f32) (x1 : Vec Ideal S128x64 .f32) (x2 : Vec Ideal S64x128x64 .f32)
    (x3 : Vec Ideal S64x64 .f32) (x4 : Vec Ideal S128x64 .f32) (x5 : Vec Ideal S128x64 .f32) (x6 : Vec Ideal S64 .f32)
    (x7 : Vec Ideal S128x64 .f32) (x8 : Vec Ideal S64 .f32) (x9 : Vec Ideal S128x64 .f32) (x10 : Vec Ideal S64 .f32)
    (a : Fin 64) (u : Fin 128) (d : Fin 64) :
    out1_11 (F := Ideal) x0 x1 x2 x3 x4 x5 x6 x7 x8 x9 x10 (ix3 a u d)
      = lin x9 x10 (cat (fun k => x2 (ix3 a u k))
          (fun k => (x3 (ix2 a k) - relu (lin x5 x6 (cat (fun k' => x0 (ix2 a k')) (fun k' => x2 (ix3 a u k'))) k))
            + (x4 (ix2 u k) - relu (lin x7 x8 (cat (fun k' => x1 (ix2 u k')) (fun k' => x2 (ix3 a u k'))) k)))) d := by
  have hz3 : (![0, 0, 0] : Fin 3 → Nat) = fun _ => 0 := by funext b; fin_cases b <;> rfl
  have hz2 : (![0, 0] : Fin 2 → Nat) = fun _ => 0 := by funext b; fin_cases b <;> rfl
  have hz1 : (![0] : Fin 1 → Nat) = fun _ => 0 := by funext b; fin_cases b; rfl
  unfold out1_11
  rw [View.canon_unit_zero hz3]
  rw [View.ld_unit_zero (S := S64x128x64) hz3 _ x2, View.ld_unit_zero (S := S64x64) hz2 _ x0,
    View.ld_unit_zero (S := S64x64) hz2 _ x3, View.ld_unit_zero (S := S128x64) hz2 _ x1,
    View.ld_unit_zero (S := S128x64) hz2 _ x4, View.ld_unit_zero (S := S128x64) hz2 _ x5,
    View.ld_unit_zero (S := S128x64) hz2 _ x7, View.ld_unit_zero (S := S128x64) hz2 _ x9,
    View.ld_unit_zero (S := S64) hz1 _ x6, View.ld_unit_zero (S := S64) hz1 _ x8,
    View.ld_unit_zero (S := S64) hz1 _ x10]
  refine (pay1_apply x2 _ _ _ _ _ x9 x10 a u d).trans ?_
  refine congrArg (fun f => lin x9 x10 (cat (fun k => x2 (ix3 a u k)) f) d) (funext fun k => ?_)
  have e2 : k1_pay2 (F := Ideal) x3 = x3 := shapeCast_self x3 _
  have e3 : k1_pay3 (F := Ideal) x4 = x4 := shapeCast_self x4 _
  have e4 : k1_pay4 (F := Ideal) x0 x2 x5 x6 (ix3 a u k)
      = relu (lin x5 x6 (cat (fun k' => x0 (ix2 a k')) (fun k' => x2 (ix3 a u k'))) k) := pay4_apply x0 x2 x5 x6 a u k
  have e5 : k1_pay5 (F := Ideal) x1 x2 x7 x8 (ix3 a u k)
      = lin x7 x8 (cat (fun k' => x1 (ix2 u k')) (fun k' => x2 (ix3 a u k'))) k := pay5_apply x1 x2 x7 x8 a u k
  rw [e2, e3, e4, e5]
  rfl

end Cert.KernelIdeal.Pay1

end
-- ==== Proof.Reg1.lean ====
/-
  The second region's result array. At grid point (q0, q1) the body reads rows 64·q0 … 64·q0 + 63 of the first
  ends' arrays, rows 128·q1 … 128·q1 + 127 of the second ends' arrays, the edge block at those rows, and the three
  layers whole; what it writes back is that block of ONE array: `outOf` of the arrays as the region finds them. The
  32 blocks tile the array, so the array ends holding it.
-/
import proofs.«167091_j13915694039584_1_alg».proof.Proof.Gen.KernelIdeal.Frame
import proofs.«167091_j13915694039584_1_alg».proof.Proof.Spec
import proofs.«167091_j13915694039584_1_alg».proof.Proof.Pay1
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Cert.Spec
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-! ## The arrays the region finds, by their literal types -/

abbrev aAp (c : Dev nD) : T2 256 64 := V c main_arg0
abbrev aUe (c : Dev nD) : T2 1024 64 := V c main_arg1
abbrev aEd (c : Dev nD) : T3 256 1024 64 := V c main_arg2
abbrev aS (c : Dev nD) : T2 256 64 := V c main_v0_0
abbrev aT (c : Dev nD) : T2 1024 64 := V c main_v0_1
abbrev aW1 (c : Dev nD) : T2 128 64 := V c main_arg3
abbrev ab1 (c : Dev nD) : T1 64 := V c main_arg4
abbrev aW2 (c : Dev nD) : T2 128 64 := V c main_arg5
abbrev ab2 (c : Dev nD) : T1 64 := V c main_arg6
abbrev aW3 (c : Dev nD) : T2 128 64 := V c main_arg7
abbrev ab3 (c : Dev nD) : T1 64 := V c main_arg8

/-- What the result array ends holding: `outOf` of the arrays at the region's entry, index by index. -/
def G (c : Dev nD) : T3 256 1024 64 := fun i =>
  outOf (aAp V c) (aUe V c) (aEd V c) (aW1 V c) (ab1 V c) (aW2 V c) (ab2 V c) (aW3 V c) (ab3 V c) (aS V c) (aT V c) (i 0) (i 1) (i 2)

/-! ## The grid: point t is block (q0, q1) of every moving window -/

/-- Row `a` of block `q0` of a 256-row array, and row `u` of block `q1` of a 1024-row array. -/
abbrev rowA (q0 : Fin 4) (a : Fin 64) : Fin 256 := ⟨64 * q0.val + a.val, by have := q0.isLt; have := a.isLt; omega⟩
abbrev rowU (q1 : Fin 8) (u : Fin 128) : Fin 1024 := ⟨128 * q1.val + u.val, by have := q1.isLt; have := u.isLt; omega⟩

/-- The printed index maps, decided over the 32 points. -/
theorem idx_facts : ∀ t : Fin cfg1.N, ∃ (q0 : Fin 4) (q1 : Fin 8),
    win1_11.index t (0 : Fin 3) = q0.val ∧ win1_11.index t (1 : Fin 3) = q1.val ∧ win1_11.index t (2 : Fin 3) = 0
    ∧ win1_0.index t (0 : Fin 2) = q0.val ∧ win1_0.index t (1 : Fin 2) = 0
    ∧ win1_1.index t (0 : Fin 2) = q1.val ∧ win1_1.index t (1 : Fin 2) = 0
    ∧ win1_2.index t (0 : Fin 3) = q0.val ∧ win1_2.index t (1 : Fin 3) = q1.val ∧ win1_2.index t (2 : Fin 3) = 0
    ∧ win1_3.index t (0 : Fin 2) = q0.val ∧ win1_3.index t (1 : Fin 2) = 0
    ∧ win1_4.index t (0 : Fin 2) = q1.val ∧ win1_4.index t (1 : Fin 2) = 0
    ∧ win1_5.index t (0 : Fin 2) = 0 ∧ win1_5.index t (1 : Fin 2) = 0 ∧ win1_6.index t (0 : Fin 1) = 0
    ∧ win1_7.index t (0 : Fin 2) = 0 ∧ win1_7.index t (1 : Fin 2) = 0 ∧ win1_8.index t (0 : Fin 1) = 0
    ∧ win1_9.index t (0 : Fin 2) = 0 ∧ win1_9.index t (1 : Fin 2) = 0 ∧ win1_10.index t (0 : Fin 1) = 0 :=
  (by decide +kernel : ∀ t : Fin grid1.N, _)

/-- Every block of the result array is some point's. -/
theorem idx_onto : ∀ (q0 : Fin 4) (q1 : Fin 8), ∃ t : Fin cfg1.N, win1_11.index t = ![q0.val, q1.val, 0] :=
  (by decide +kernel : ∀ (q0 : Fin 4) (q1 : Fin 8), ∃ t : Fin grid1.N, win1_11.index t = ![q0.val, q1.val, 0])

/-! ## Each input block at a point, read where the arrays hold it -/

section Reads
variable (c : Dev nD) (t : Fin cfg1.N) (q0 : Fin 4) (q1 : Fin 8)

theorem rd0 (h0 : win1_0.index t (0 : Fin 2) = q0.val) (h1 : win1_0.index t (1 : Fin 2) = 0) (a k : Fin 64) :
    iblk1 V c 0 t (ix2 a k) = aAp V c (ix2 (rowA q0 a) k) := by
  unfold iblk1; rw [View.read_apply]
  show V c main_arg0 _ = V c main_arg0 _
  congr 1; funext x; apply Fin.ext
  match x with
  | ⟨0, _⟩ => show win1_0.index t (0 : Fin 2) * 64 + 1 * a.val = 64 * q0.val + a.val; rw [h0]; omega
  | ⟨1, _⟩ => show win1_0.index t (1 : Fin 2) * 64 + 1 * k.val = k.val; rw [h1]; omega

theorem rd1 (h0 : win1_1.index t (0 : Fin 2) = q1.val) (h1 : win1_1.index t (1 : Fin 2) = 0) (u : Fin 128) (k : Fin 64) :
    iblk1 V c 1 t (ix2 u k) = aUe V c (ix2 (rowU q1 u) k) := by
  unfold iblk1; rw [View.read_apply]
  show V c main_arg1 _ = V c main_arg1 _
  congr 1; funext x; apply Fin.ext
  match x with
  | ⟨0, _⟩ => show win1_1.index t (0 : Fin 2) * 128 + 1 * u.val = 128 * q1.val + u.val; rw [h0]; omega
  | ⟨1, _⟩ => show win1_1.index t (1 : Fin 2) * 64 + 1 * k.val = k.val; rw [h1]; omega

theorem rd2 (h0 : win1_2.index t (0 : Fin 3) = q0.val) (h1 : win1_2.index t (1 : Fin 3) = q1.val)
    (h2 : win1_2.index t (2 : Fin 3) = 0) (a : Fin 64) (u : Fin 128) (k : Fin 64) :
    iblk1 V c 2 t (ix3 a u k) = aEd V c (ix3 (rowA q0 a) (rowU q1 u) k) := by
  unfold iblk1; rw [View.read_apply]
  show V c main_arg2 _ = V c main_arg2 _
  congr 1; funext x; apply Fin.ext
  match x with
  | ⟨0, _⟩ => show win1_2.index t (0 : Fin 3) * 64 + 1 * a.val = 64 * q0.val + a.val; rw [h0]; omega
  | ⟨1, _⟩ => show win1_2.index t (1 : Fin 3) * 128 + 1 * u.val = 128 * q1.val + u.val; rw [h1]; omega
  | ⟨2, _⟩ => show win1_2.index t (2 : Fin 3) * 64 + 1 * k.val = k.val; rw [h2]; omega

theorem rd3 (h0 : win1_3.index t (0 : Fin 2) = q0.val) (h1 : win1_3.index t (1 : Fin 2) = 0) (a k : Fin 64) :
    iblk1 V c 3 t (ix2 a k) = aS V c (ix2 (rowA q0 a) k) := by
  unfold iblk1; rw [View.read_apply]
  show V c main_v0_0 _ = V c main_v0_0 _
  congr 1; funext x; apply Fin.ext
  match x with
  | ⟨0, _⟩ => show win1_3.index t (0 : Fin 2) * 64 + 1 * a.val = 64 * q0.val + a.val; rw [h0]; omega
  | ⟨1, _⟩ => show win1_3.index t (1 : Fin 2) * 64 + 1 * k.val = k.val; rw [h1]; omega

theorem rd4 (h0 : win1_4.index t (0 : Fin 2) = q1.val) (h1 : win1_4.index t (1 : Fin 2) = 0) (u : Fin 128) (k : Fin 64) :
    iblk1 V c 4 t (ix2 u k) = aT V c (ix2 (rowU q1 u) k) := by
  unfold iblk1; rw [View.read_apply]
  show V c main_v0_1 _ = V c main_v0_1 _
  congr 1; funext x; apply Fin.ext
  match x with
  | ⟨0, _⟩ => show win1_4.index t (0 : Fin 2) * 128 + 1 * u.val = 128 * q1.val + u.val; rw [h0]; omega
  | ⟨1, _⟩ => show win1_4.index t (1 : Fin 2) * 64 + 1 * k.val = k.val; rw [h1]; omega

theorem rd5 (h0 : win1_5.index t (0 : Fin 2) = 0) (h1 : win1_5.index t (1 : Fin 2) = 0) (k : Fin 128) (d : Fin 64) :
    iblk1 V c 5 t (ix2 k d) = aW1 V c (ix2 k d) := by
  unfold iblk1; rw [View.read_apply]
  show V c main_arg3 _ = V c main_arg3 _
  congr 1; funext x; apply Fin.ext
  match x with
  | ⟨0, _⟩ => show win1_5.index t (0 : Fin 2) * 128 + 1 * k.val = k.val; rw [h0]; omega
  | ⟨1, _⟩ => show win1_5.index t (1 : Fin 2) * 64 + 1 * d.val = d.val; rw [h1]; omega

theorem rd6 (h0 : win1_6.index t (0 : Fin 1) = 0) (d : Fin 64) : iblk1 V c 6 t (ix1 d) = ab1 V c (ix1 d) := by
  unfold iblk1; rw [View.read_apply]
  show V c main_arg4 _ = V c main_arg4 _
  congr 1; funext x; apply Fin.ext
  match x with
  | ⟨0, _⟩ => show win1_6.index t (0 : Fin 1) * 64 + 1 * d.val = d.val; rw [h0]; omega

theorem rd7 (h0 : win1_7.index t (0 : Fin 2) = 0) (h1 : win1_7.index t (1 : Fin 2) = 0) (k : Fin 128) (d : Fin 64) :
    iblk1 V c 7 t (ix2 k d) = aW2 V c (ix2 k d) := by
  unfold iblk1; rw [View.read_apply]
  show V c main_arg5 _ = V c main_arg5 _
  congr 1; funext x; apply Fin.ext
  match x with
  | ⟨0, _⟩ => show win1_7.index t (0 : Fin 2) * 128 + 1 * k.val = k.val; rw [h0]; omega
  | ⟨1, _⟩ => show win1_7.index t (1 : Fin 2) * 64 + 1 * d.val = d.val; rw [h1]; omega

theorem rd8 (h0 : win1_8.index t (0 : Fin 1) = 0) (d : Fin 64) : iblk1 V c 8 t (ix1 d) = ab2 V c (ix1 d) := by
  unfold iblk1; rw [View.read_apply]
  show V c main_arg6 _ = V c main_arg6 _
  congr 1; funext x; apply Fin.ext
  match x with
  | ⟨0, _⟩ => show win1_8.index t (0 : Fin 1) * 64 + 1 * d.val = d.val; rw [h0]; omega

theorem rd9 (h0 : win1_9.index t (0 : Fin 2) = 0) (h1 : win1_9.index t (1 : Fin 2) = 0) (k : Fin 128) (d : Fin 64) :
    iblk1 V c 9 t (ix2 k d) = aW3 V c (ix2 k d) := by
  unfold iblk1; rw [View.read_apply]
  show V c main_arg7 _ = V c main_arg7 _
  congr 1; funext x; apply Fin.ext
  match x with
  | ⟨0, _⟩ => show win1_9.index t (0 : Fin 2) * 128 + 1 * k.val = k.val; rw [h0]; omega
  | ⟨1, _⟩ => show win1_9.index t (1 : Fin 2) * 64 + 1 * d.val = d.val; rw [h1]; omega

theorem rd10 (h0 : win1_10.index t (0 : Fin 1) = 0) (d : Fin 64) : iblk1 V c 10 t (ix1 d) = ab3 V c (ix1 d) := by
  unfold iblk1; rw [View.read_apply]
  show V c main_arg8 _ = V c main_arg8 _
  congr 1; funext x; apply Fin.ext
  match x with
  | ⟨0, _⟩ => show win1_10.index t (0 : Fin 1) * 64 + 1 * d.val = d.val; rw [h0]; omega

end Reads

/-! ## What a point writes back, the cover, and the array -/

/-- Point `t` writes back block `t` of `G`. -/
theorem flushed_eq (c : Dev nD) (t : Fin cfg1.N) :
    (dat1 V c).flushed 11 t = ((cfg1.win 11).blk t).view.read (Elt Ideal) (G V c) := by
  show (cfg1.win 11).cut (grid1.coords t) ((dat1 V c).after 11 t) = _
  rw [after1_11]
  obtain ⟨q0, q1, e0, e1, e2, f00, f01, f10, f11, f20, f21, f22, f30, f31, f40, f41, f50, f51, f6, f70, f71, f8, f90, f91, f10'⟩ :=
    idx_facts t
  funext j
  obtain ⟨a, u, d, rfl⟩ : ∃ (a : Fin 64) (u : Fin 128) (d : Fin 64), j = ix3 a u d := ⟨j 0, j 1, j 2, eq_ix3 j⟩
  rw [View.read_apply]
  have hemb : ((cfg1.win 11).blk t).view.emb (ix3 a u d) = ix3 (rowA q0 a) (rowU q1 u) d := by
    funext x; apply Fin.ext
    match x with
    | ⟨0, _⟩ => show win1_11.index t (0 : Fin 3) * 64 + 1 * a.val = 64 * q0.val + a.val; rw [e0]; omega
    | ⟨1, _⟩ => show win1_11.index t (1 : Fin 3) * 128 + 1 * u.val = 128 * q1.val + u.val; rw [e1]; omega
    | ⟨2, _⟩ => show win1_11.index t (2 : Fin 3) * 64 + 1 * d.val = d.val; rw [e2]; omega
  rw [hemb]
  refine (Pay1.out1_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) a u d).trans ?_
  show _ = outOf (aAp V c) (aUe V c) (aEd V c) (aW1 V c) (ab1 V c) (aW2 V c) (ab2 V c) (aW3 V c) (ab3 V c) (aS V c) (aT V c)
    (rowA q0 a) (rowU q1 u) d
  unfold outOf apRes ueRes lin
  simp only [rd0 V c t q0 f00 f01, rd1 V c t q1 f10 f11, rd2 V c t q0 q1 f20 f21 f22, rd3 V c t q0 f30 f31,
    rd4 V c t q1 f40 f41, rd5 V c t f50 f51, rd6 V c t f6, rd7 V c t f70 f71, rd8 V c t f8, rd9 V c t f90 f91,
    rd10 V c t f10']

/-- An index of the array is in point `t`'s block iff each coordinate is in the block's range on its axis. -/
theorem mem_blk (t : Fin cfg1.N) (i : S256x1024x64.Idx) :
    i ∈ ((cfg1.win 11).blk t).view.set ↔ ∀ a : Fin 3, win1_11.index t a * S64x128x64.size a ≤ (i a).val
      ∧ (i a).val < win1_11.index t a * S64x128x64.size a + S64x128x64.size a := by
  show i ∈ ((View.whole main_v1).slice (win1_11.rect t)).set ↔ _
  rw [View.set_slice_whole, Rect.mem_set_unit]
  exact Iff.rfl

/-- Every index of the array is in some point's block: the one at (row / 64, row / 128). -/
theorem cover (i : S256x1024x64.Idx) :
    ∃ t : Fin cfg1.N, (cfg1.win 11).flush t = true ∧ i ∈ ((cfg1.win 11).blk t).view.set := by
  have hi0 : (i 0).val < 256 := (i 0).isLt
  have hi1 : (i 1).val < 1024 := (i 1).isLt
  have hi2 : (i 2).val < 64 := (i 2).isLt
  obtain ⟨t, ht⟩ := idx_onto ⟨(i 0).val / 64, by omega⟩ ⟨(i 1).val / 128, by omega⟩
  have p0 : win1_11.index t (0 : Fin 3) = (i 0).val / 64 := congrFun ht 0
  have p1 : win1_11.index t (1 : Fin 3) = (i 1).val / 128 := congrFun ht 1
  have p2 : win1_11.index t (2 : Fin 3) = 0 := congrFun ht 2
  refine ⟨t, flush1_11 t, ?_⟩
  rw [mem_blk]
  intro a
  match a with
  | ⟨0, _⟩ => show win1_11.index t (0 : Fin 3) * 64 ≤ (i 0).val ∧ (i 0).val < win1_11.index t (0 : Fin 3) * 64 + 64; omega
  | ⟨1, _⟩ => show win1_11.index t (1 : Fin 3) * 128 ≤ (i 1).val ∧ (i 1).val < win1_11.index t (1 : Fin 3) * 128 + 128; omega
  | ⟨2, _⟩ => show win1_11.index t (2 : Fin 3) * 64 ≤ (i 2).val ∧ (i 2).val < win1_11.index t (2 : Fin 3) * 64 + 64; omega

/-- The result array after the region's 32 write-backs. -/
theorem final (c : Dev nD) : (dat1 V c).arrAt 11 cfg1.N = G V c :=
  (dat1 V c).arrAt_eq_of_cover 11 (G V c) (fun t _ => flushed_eq V c t) (cover)

end Cert.KernelIdeal.Reg1

end
-- ==== Proof.KernelValue.lean ====
/-
  The kernel program's result array as a function of its nine arguments.

  Between the two regions every argument array still holds what it was launched with (a region reads it through an
  input window, or does not touch it), and the two intermediate arrays hold the per-end totals the first region leaves.
  The second region's result array is `outOf` of what it finds; at these contents that is the specification's `out`.
-/
import proofs.«167091_j13915694039584_1_alg».proof.Proof.Run
import proofs.«167091_j13915694039584_1_alg».proof.Proof.Reg0
import proofs.«167091_j13915694039584_1_alg».proof.Proof.Reg1

set_option maxRecDepth 16384

noncomputable section

open Idealize.ShloMosaic Idealize.ShloMosaic.TcCoe Idealize.SL.Sem Idealize.ShloMosaic.ValueIdx Cert.Spec
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-! ## What the second region finds -/

theorem ap_eq (c : Dev nD) : Reg1.aAp (V1 m ρ) c = m ((c.tc : Thread nD τ).loc main_arg0) := (W1_arr m ρ c 0).trans (((dat0 (V0 m ρ) c).arrAt_in 0 rfl _).trans (A_eq0 (V0 m ρ) c 0))
theorem ue_eq (c : Dev nD) : Reg1.aUe (V1 m ρ) c = m ((c.tc : Thread nD τ).loc main_arg1) := (W1_arr m ρ c 1).trans (((dat0 (V0 m ρ) c).arrAt_in 1 rfl _).trans (A_eq0 (V0 m ρ) c 1))
theorem ed_eq (c : Dev nD) : Reg1.aEd (V1 m ρ) c = m ((c.tc : Thread nD τ).loc main_arg2) := (W1_arr m ρ c 2).trans (((dat0 (V0 m ρ) c).arrAt_in 2 rfl _).trans (A_eq0 (V0 m ρ) c 2))
theorem W1_eq (c : Dev nD) : Reg1.aW1 (V1 m ρ) c = m ((c.tc : Thread nD τ).loc main_arg3) := (W1_arr m ρ c 3).trans (((dat0 (V0 m ρ) c).arrAt_in 3 rfl _).trans (A_eq0 (V0 m ρ) c 3))
theorem b1_eq (c : Dev nD) : Reg1.ab1 (V1 m ρ) c = m ((c.tc : Thread nD τ).loc main_arg4) := (W1_arr m ρ c 4).trans (((dat0 (V0 m ρ) c).arrAt_in 4 rfl _).trans (A_eq0 (V0 m ρ) c 4))
theorem W2_eq (c : Dev nD) : Reg1.aW2 (V1 m ρ) c = m ((c.tc : Thread nD τ).loc main_arg5) := (W1_arr m ρ c 5).trans (((dat0 (V0 m ρ) c).arrAt_in 5 rfl _).trans (A_eq0 (V0 m ρ) c 5))
theorem b2_eq (c : Dev nD) : Reg1.ab2 (V1 m ρ) c = m ((c.tc : Thread nD τ).loc main_arg6) := (W1_arr m ρ c 6).trans (((dat0 (V0 m ρ) c).arrAt_in 6 rfl _).trans (A_eq0 (V0 m ρ) c 6))
theorem W3_eq (c : Dev nD) : Reg1.aW3 (V1 m ρ) c = m ((c.tc : Thread nD τ).loc main_arg7) := W1_of_ne m ρ c main_arg7 (by decide)
theorem b3_eq (c : Dev nD) : Reg1.ab3 (V1 m ρ) c = m ((c.tc : Thread nD τ).loc main_arg8) := W1_of_ne m ρ c main_arg8 (by decide)

/-- The first intermediate array: each first end's total. -/
theorem S_eq (c : Dev nD) : Reg1.aS (V1 m ρ) c = apSum (m ((c.tc : Thread nD τ).loc main_arg0)) (m ((c.tc : Thread nD τ).loc main_arg2)) (m ((c.tc : Thread nD τ).loc main_arg3)) (m ((c.tc : Thread nD τ).loc main_arg4)) :=
  (W1_arr m ρ c 7).trans (Reg0.final7 (V0 m ρ) c)

/-- The second intermediate array: each second end's total. -/
theorem T_eq (c : Dev nD) : Reg1.aT (V1 m ρ) c = ueSum (m ((c.tc : Thread nD τ).loc main_arg1)) (m ((c.tc : Thread nD τ).loc main_arg2)) (m ((c.tc : Thread nD τ).loc main_arg5)) (m ((c.tc : Thread nD τ).loc main_arg6)) :=
  (W1_arr m ρ c 8).trans (Reg0.final8 (V0 m ρ) c)

/-! ## The result array -/

theorem result_eq (c : Dev nD) : W2 m ρ c (Proc.devRef .tc main_v1)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W2_arr m ρ c 11).trans ((Reg1.final (V1 m ρ) c).trans ?_)
  unfold Reg1.G out
  rw [ap_eq m ρ c, ue_eq m ρ c, ed_eq m ρ c, W1_eq m ρ c, b1_eq m ρ c, W2_eq m ρ c, b2_eq m ρ c, W3_eq m ρ c, b3_eq m ρ c,
    S_eq m ρ c, T_eq m ρ c]

/-- The kernel program's run, read: the result array at the specification's `out` of the arguments, the arguments
    unchanged. -/
theorem run : θ_run defs (onTc (τ := τ) (main (F := Ideal))) ⟨m, fun _ => 0, ρ⟩ (fun r => ∀ c : Dev nD,
      r.2.mem ((c.tc : Thread nD τ).loc main_v1)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m ρ c), (h c).2⟩) (Run.run_named (F := Ideal) m ρ)

end Cert.KernelIdeal.KernelValue

end
-- ==== Proof.RefValue.lean ====
/-
  The reference's result, stage by stage, is the specification's result array.
-/
import proofs.«167091_j13915694039584_1_alg».proof.Proof.Gen.ReferenceIdeal.Read
import proofs.«167091_j13915694039584_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx Cert.Spec

namespace Cert.ReferenceIdeal.RefValue

open Cert.ReferenceIdeal Cert.ReferenceIdeal.Gen

/-! ## The stages at explicit coordinates, bottom-up -/

section Stages

variable (x0 : (⟨S256x64, .f32⟩ : BufTy).Contents (Elt Ideal)) (x1 : (⟨S1024x64, .f32⟩ : BufTy).Contents (Elt Ideal))
    (x2 : (⟨S256x1024x64, .f32⟩ : BufTy).Contents (Elt Ideal)) (x3 : (⟨S128x64, .f32⟩ : BufTy).Contents (Elt Ideal))
    (x4 : (⟨S64, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal))

/-- The first joined operand at (a, u, k): the node vector of a beside the edge vector of (a, u). -/
theorem v2_at (a : Fin 256) (u : Fin 1024) (k : Fin 128) :
    Read.val_main_v2 (F := Ideal) x0 x2 (ix3 a u k) = cat (fun k => x0 (ix2 a k)) (fun k => x2 (ix3 a u k)) k := by
  unfold Read.val_main_v2
  by_cases hk : k.val < 64
  · rw [cat_left _ _ _ hk]
    refine (concatenate_pair_apply_left 2 (Read.val_main_v1 (F := Ideal) x0) x2
      concatenates_S256x1024x64_S256x1024x64_S256x1024x128_d2 (ix3 a u k) rfl (ix3 a u ⟨k.val, hk⟩)
      (fun b => match b with | ⟨0, _⟩ => rfl | ⟨1, _⟩ => rfl | ⟨2, _⟩ => rfl)).trans ?_
    rw [Read.val_main_v1_apply, Read.val_main_v0_apply]
    exact congrArg x0 (funext fun b => Fin.ext (by match b with | ⟨0, _⟩ => rfl | ⟨1, _⟩ => rfl))
  · have hk' : 64 ≤ k.val := Nat.not_lt.1 hk
    rw [cat_right _ _ _ hk']
    exact concatenate_pair_apply_right 2 (Read.val_main_v1 (F := Ideal) x0) x2
      concatenates_S256x1024x64_S256x1024x64_S256x1024x128_d2 (ix3 a u k) rfl rfl
      (ix3 a u ⟨k.val - 64, by have := k.isLt; omega⟩)
      (fun b hb => match b, hb with | ⟨0, _⟩, _ => rfl | ⟨1, _⟩, _ => rfl | ⟨2, _⟩, hb => absurd rfl hb)
      (by show (k.val - 64) + 64 = k.val; omega)

/-- The first clamped layer at (a, u, d) is the message edge (a, u) sends to its end a. -/
theorem v7_at (a : Fin 256) (u : Fin 1024) (d : Fin 64) :
    Read.val_main_v7 (F := Ideal) x0 x2 x3 x4 (ix3 a u d) = apRes x0 x2 x3 x4 a u d := by
  rw [Read.val_main_v7_apply, Read.val_main_v6_apply, Read.val_main_v3_apply, Read.val_main_v5_apply,
    Read.val_main_v4_apply, Read.val_main_call0_v0_apply, Read.val_main_call0_cst_apply]
  unfold apRes relu lin
  simp only [Ideal.maximumf_def, Ideal.addf_def, Ideal.ofBits_def]
  refine congrArg₂ max (congrArg₂ (· + ·) (Finset.sum_congr rfl fun k _ => ?_) ?_) rfl
  · have e1 : Read.lidx_main_v3 (ix3 a u d) k = ix3 a u k :=
      funext fun b => Fin.ext (by match b with | ⟨0, _⟩ => rfl | ⟨1, _⟩ => rfl | ⟨2, _⟩ => rfl)
    have e2 : Read.ridx_main_v3 (ix3 a u d) k = ix2 k d :=
      funext fun b => Fin.ext (by match b with | ⟨0, _⟩ => rfl | ⟨1, _⟩ => rfl)
    rw [e1, e2, v2_at]
  · exact congrArg x4 (funext fun b => Fin.ext (by match b with | ⟨0, _⟩ => rfl))

/-- The second joined operand at (u, a, k): the node vector of u beside the edge vector of (a, u). -/
theorem v11_at (a : Fin 256) (u : Fin 1024) (k : Fin 128) :
    Read.val_main_v11 (F := Ideal) x1 x2 (ix3 u a k) = cat (fun k => x1 (ix2 u k)) (fun k => x2 (ix3 a u k)) k := by
  unfold Read.val_main_v11
  by_cases hk : k.val < 64
  · rw [cat_left _ _ _ hk]
    refine (concatenate_pair_apply_left 2 (Read.val_main_v10 (F := Ideal) x1) (Read.val_main_v8 (F := Ideal) x2)
      concatenates_S1024x256x64_S1024x256x64_S1024x256x128_d2 (ix3 u a k) rfl (ix3 u a ⟨k.val, hk⟩)
      (fun b => match b with | ⟨0, _⟩ => rfl | ⟨1, _⟩ => rfl | ⟨2, _⟩ => rfl)).trans ?_
    rw [Read.val_main_v10_apply, Read.val_main_v9_apply]
    exact congrArg x1 (funext fun b => Fin.ext (by match b with | ⟨0, _⟩ => rfl | ⟨1, _⟩ => rfl))
  · have hk' : 64 ≤ k.val := Nat.not_lt.1 hk
    rw [cat_right _ _ _ hk']
    refine (concatenate_pair_apply_right 2 (Read.val_main_v10 (F := Ideal) x1) (Read.val_main_v8 (F := Ideal) x2)
      concatenates_S1024x256x64_S1024x256x64_S1024x256x128_d2 (ix3 u a k) rfl rfl
      (ix3 u a ⟨k.val - 64, by have := k.isLt; omega⟩)
      (fun b hb => match b, hb with | ⟨0, _⟩, _ => rfl | ⟨1, _⟩, _ => rfl | ⟨2, _⟩, hb => absurd rfl hb)
      (by show (k.val - 64) + 64 = k.val; omega)).trans ?_
    rw [Read.val_main_v8_apply]
    exact congrArg x2 (funext fun b => Fin.ext (by match b with | ⟨0, _⟩ => rfl | ⟨1, _⟩ => rfl | ⟨2, _⟩ => rfl))

/-- The second clamped layer at (u, a, d) is the message edge (a, u) sends to its end u. -/
theorem v16_at (a : Fin 256) (u : Fin 1024) (d : Fin 64) :
    Read.val_main_v16 (F := Ideal) x1 x2 x5 x6 (ix3 u a d) = ueRes x1 x2 x5 x6 a u d := by
  rw [Read.val_main_v16_apply, Read.val_main_v15_apply, Read.val_main_v12_apply, Read.val_main_v14_apply,
    Read.val_main_v13_apply, Read.val_main_call1_v0_apply, Read.val_main_call1_cst_apply]
  unfold ueRes relu lin
  simp only [Ideal.maximumf_def, Ideal.addf_def, Ideal.ofBits_def]
  refine congrArg₂ max (congrArg₂ (· + ·) (Finset.sum_congr rfl fun k _ => ?_) ?_) rfl
  · have e1 : Read.lidx_main_v12 (ix3 u a d) k = ix3 u a k :=
      funext fun b => Fin.ext (by match b with | ⟨0, _⟩ => rfl | ⟨1, _⟩ => rfl | ⟨2, _⟩ => rfl)
    have e2 : Read.ridx_main_v12 (ix3 u a d) k = ix2 k d :=
      funext fun b => Fin.ext (by match b with | ⟨0, _⟩ => rfl | ⟨1, _⟩ => rfl)
    rw [e1, e2, v11_at]
  · exact congrArg x6 (funext fun b => Fin.ext (by match b with | ⟨0, _⟩ => rfl))

/-- The first total at (a, d): the zero word's value plus the sum over the 1024 edges at a. -/
theorem v17_at (a : Fin 256) (d : Fin 64) :
    Read.val_main_v17 (F := Ideal) x0 x2 x3 x4 (ix2 a d) = apSum x0 x2 x3 x4 (ix2 a d) := by
  rw [Read.val_main_v17_apply, Read.val_main_cst_apply]
  unfold apSum
  simp only [Ideal.ofBits_def]
  refine congrArg (_ + ·) (Finset.sum_congr rfl fun u _ => ?_)
  have e : Read.idx_main_v17 (ix2 a d) u = ix3 a u d :=
    funext fun b => Fin.ext (by match b with | ⟨0, _⟩ => rfl | ⟨1, _⟩ => rfl | ⟨2, _⟩ => rfl)
  rw [e, v7_at]

/-- The second total at (u, d): the sum over the 256 edges at u (the zero word's value is 0 and drops out). -/
theorem v18_at (u : Fin 1024) (d : Fin 64) :
    Read.val_main_v18 (F := Ideal) x1 x2 x5 x6 (ix2 u d) = ueSum x1 x2 x5 x6 (ix2 u d) := by
  rw [Read.val_main_v18_apply, Read.val_main_cst_0_apply]
  unfold ueSum
  simp only [Ideal.ofBits_def]
  rw [Ideal.ofBits_zero_f32, zero_add]
  refine Finset.sum_congr rfl fun a _ => ?_
  have e : Read.idx_main_v18 (ix2 u d) a = ix3 u a d :=
    funext fun b => Fin.ext (by match b with | ⟨0, _⟩ => rfl | ⟨1, _⟩ => rfl | ⟨2, _⟩ => rfl)
  rw [e, v16_at]

/-- The combined residual at (a, u, d): what the two ends of edge (a, u) received from their other edges. -/
theorem v26_at (a : Fin 256) (u : Fin 1024) (d : Fin 64) :
    Read.val_main_v26 (F := Ideal) x0 x1 x2 x3 x4 x5 x6 (ix3 a u d) =
      (apSum x0 x2 x3 x4 (ix2 a d) - apRes x0 x2 x3 x4 a u d) + (ueSum x1 x2 x5 x6 (ix2 u d) - ueRes x1 x2 x5 x6 a u d) := by
  rw [Read.val_main_v26_apply, Read.val_main_v21_apply, Read.val_main_v25_apply, Read.val_main_v20_apply,
    Read.val_main_v19_apply, Read.val_main_v24_apply, Read.val_main_v22_apply, Read.val_main_v23_apply]
  simp only [Ideal.addf_def, Ideal.subf_def]
  have e1 : Read.idx_main_v19 (Read.idx_main_v20 (ix3 a u d)) = ix2 a d :=
    funext fun b => Fin.ext (by match b with | ⟨0, _⟩ => rfl | ⟨1, _⟩ => rfl)
  have e2 : Read.idx_main_v22 (Read.idx_main_v24 (ix3 a u d)) = ix2 u d :=
    funext fun b => Fin.ext (by match b with | ⟨0, _⟩ => rfl | ⟨1, _⟩ => rfl)
  have e3 : Read.idx_main_v23 (ix3 a u d) = ix3 u a d :=
    funext fun b => Fin.ext (by match b with | ⟨0, _⟩ => rfl | ⟨1, _⟩ => rfl | ⟨2, _⟩ => rfl)
  rw [e1, e2, e3, v17_at, v18_at, v7_at, v16_at]

/-- The third joined operand at (a, u, k): the edge vector of (a, u) beside the combined residual. -/
theorem v27_at (a : Fin 256) (u : Fin 1024) (k : Fin 128) :
    Read.val_main_v27 (F := Ideal) x0 x1 x2 x3 x4 x5 x6 (ix3 a u k) =
      cat (fun k => x2 (ix3 a u k))
        (fun k => (apSum x0 x2 x3 x4 (ix2 a k) - apRes x0 x2 x3 x4 a u k) + (ueSum x1 x2 x5 x6 (ix2 u k) - ueRes x1 x2 x5 x6 a u k)) k := by
  unfold Read.val_main_v27
  by_cases hk : k.val < 64
  · rw [cat_left _ _ _ hk]
    exact concatenate_pair_apply_left 2 x2 (Read.val_main_v26 (F := Ideal) x0 x1 x2 x3 x4 x5 x6)
      concatenates_S256x1024x64_S256x1024x64_S256x1024x128_d2 (ix3 a u k) rfl (ix3 a u ⟨k.val, hk⟩)
      (fun b => match b with | ⟨0, _⟩ => rfl | ⟨1, _⟩ => rfl | ⟨2, _⟩ => rfl)
  · have hk' : 64 ≤ k.val := Nat.not_lt.1 hk
    rw [cat_right _ _ _ hk']
    refine (concatenate_pair_apply_right 2 x2 (Read.val_main_v26 (F := Ideal) x0 x1 x2 x3 x4 x5 x6)
      concatenates_S256x1024x64_S256x1024x64_S256x1024x128_d2 (ix3 a u k) rfl rfl
      (ix3 a u ⟨k.val - 64, by have := k.isLt; omega⟩)
      (fun b hb => match b, hb with | ⟨0, _⟩, _ => rfl | ⟨1, _⟩, _ => rfl | ⟨2, _⟩, hb => absurd rfl hb)
      (by show (k.val - 64) + 64 = k.val; omega)).trans ?_
    exact v26_at x0 x1 x2 x3 x4 x5 x6 a u _

/-- The last stage at (a, u, d) is the third layer on the edge vector beside the combined residual. -/
theorem v31_at (a : Fin 256) (u : Fin 1024) (d : Fin 64) :
    Read.val_main_v31 (F := Ideal) x0 x1 x2 x3 x4 x5 x6 x7 x8 (ix3 a u d) =
      outOf x0 x1 x2 x3 x4 x5 x6 x7 x8 (apSum x0 x2 x3 x4) (ueSum x1 x2 x5 x6) a u d := by
  rw [Read.val_main_v31_apply, Read.val_main_v28_apply, Read.val_main_v30_apply, Read.val_main_v29_apply]
  unfold outOf lin
  simp only [Ideal.addf_def]
  refine congrArg₂ (· + ·) (Finset.sum_congr rfl fun k _ => ?_) ?_
  · have e1 : Read.lidx_main_v28 (ix3 a u d) k = ix3 a u k :=
      funext fun b => Fin.ext (by match b with | ⟨0, _⟩ => rfl | ⟨1, _⟩ => rfl | ⟨2, _⟩ => rfl)
    have e2 : Read.ridx_main_v28 (ix3 a u d) k = ix2 k d :=
      funext fun b => Fin.ext (by match b with | ⟨0, _⟩ => rfl | ⟨1, _⟩ => rfl)
    rw [e1, e2, v27_at]
  · exact congrArg x8 (funext fun b => Fin.ext (by match b with | ⟨0, _⟩ => rfl))

end Stages

/-- The reference's last stage, as a function of the nine argument arrays, is the specification's `out` of them. -/
theorem result_eq (x0 : (⟨S256x64, .f32⟩ : BufTy).Contents (Elt Ideal)) (x1 : (⟨S1024x64, .f32⟩ : BufTy).Contents (Elt Ideal))
    (x2 : (⟨S256x1024x64, .f32⟩ : BufTy).Contents (Elt Ideal)) (x3 : (⟨S128x64, .f32⟩ : BufTy).Contents (Elt Ideal))
    (x4 : (⟨S64, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) :
    Read.val_main_v31 (F := Ideal) x0 x1 x2 x3 x4 x5 x6 x7 x8 = Cert.Spec.out x0 x1 x2 x3 x4 x5 x6 x7 x8 := by
  funext i
  obtain ⟨a, u, d, rfl⟩ : ∃ (a : Fin 256) (u : Fin 1024) (d : Fin 64), i = ix3 a u d := ⟨i 0, i 1, i 2, eq_ix3 i⟩
  exact v31_at x0 x1 x2 x3 x4 x5 x6 x7 x8 a u d

end Cert.ReferenceIdeal.RefValue

end
-- ==== Proof.lean ====
/-
  The certificate: the two-pass edge-update kernel against its one-pass reference, over the extended reals.

  Both programs give edge (a, u) of the complete bipartite graph on 256 + 1024 nodes the third affine layer of its own
  vector beside what its two ends received from their OTHER edges — each end's total of clamped first- or second-layer
  messages less this edge's own (Proof/Spec.lean: `out`). The reference forms the totals as two whole-array sums
  (Proof/RefValue.lean). The kernel's first pass walks the second ends in 32 runs of 32, adding each run's sums into
  one shared block from the zero word's value and writing each run's own rows of the other total (Proof/Reg0.lean);
  its second pass recomputes the two messages block by block and applies the third layer (Proof/Reg1.lean); between
  the passes the arguments are untouched (Proof/KernelValue.lean, over the two regions' run with the result array named:
  Proof/Run.lean). The only law between the two arrangements is the regrouping of a
  sum of 1024 terms as 32 runs of 32 (and, for the second total, that the reference's starting value, the zero word's,
  is 0); both hold at the infinities too, so the finiteness of the inputs is never opened. The three frame claims are the generated frames
  (the reference's: its generated run with the result dropped); the idealization rewrote nothing.
-/
import proofs.«167091_j13915694039584_1_alg».proof.Defs
import proofs.«167091_j13915694039584_1_alg».proof.Proof.Gen.Kernel
import proofs.«167091_j13915694039584_1_alg».proof.Proof.Gen.Kernel.Frame
import proofs.«167091_j13915694039584_1_alg».proof.Proof.Gen.KernelIdeal
import proofs.«167091_j13915694039584_1_alg».proof.Proof.Gen.KernelIdeal.Frame
import proofs.«167091_j13915694039584_1_alg».proof.Proof.Gen.ReferenceIdeal
import proofs.«167091_j13915694039584_1_alg».proof.Proof.Gen.ReferenceIdeal.Run
import proofs.«167091_j13915694039584_1_alg».proof.Proof.Gen.ReferenceIdeal.Read
import proofs.«167091_j13915694039584_1_alg».proof.Proof.Gen.Pre_finite_inputs
import proofs.«167091_j13915694039584_1_alg».proof.Proof.KernelValue
import proofs.«167091_j13915694039584_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Spec.out` of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
